-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S8x1024x1024 : Shape := ⟨3, ![8, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1x1024 : Shape := ⟨2, ![1, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8x1024x1024, .f32⟩
  | .hbm, ⟨11, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S1x512x1024, .f32⟩
  | .local _ .vmem, ⟨8, _⟩ => ⟨S1x512x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x512x1024, .f32⟩
  | .local _ .vmem, ⟨15, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x1024_S512x1024_S1024x1024_0_0_1_1_n_n_wf : DotDims.WF S512x1024 S512x1024 S1024x1024 [0] [0] [1] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .f32 = 32 ∨ (Rect.block (s := S8x1024x1024) S1x1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x4096x1024.size a
  hwx1_0 : ∀ i : grid1.Coords, EltTy.bits .f32 = 32 ∨ (Rect.block (s := S8x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x1024x1024.size a
  hwx1_4 : ∀ i : grid1.Coords, EltTy.bits .f32 = 32 ∨ (Rect.block (s := S8x1024x1024) S1x1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S8x4096x1024.size a
  hwx1_5 : ∀ i : grid1.Coords, EltTy.bits .f32 = 32 ∨ (Rect.block (s := S8x4096x1024) S1x512x1024.size (cc1_transform_5 i) (hinb1_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S8x1024x1024 : Shape := ⟨3, ![8, 1024, 1024]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x1024x1024, .f32⟩
  | .hbm, ⟨10, _⟩ => ⟨S8x4096x1024, .f32⟩
  | .hbm, ⟨11, _⟩ => ⟨S8x4096x1024, .f32⟩
  | .hbm, ⟨12, _⟩ => ⟨S1x1x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []
  dot_S8x4096x1024_S8x4096x1024_S8x1024x1024_1_1_2_2_0_0_wf : DotDims.WF S8x4096x1024 S8x4096x1024 S8x1024x1024 [1] [1] [2] [2] [0] [0]
  dot_S8x4096x1024_S8x1024x1024_S8x4096x1024_2_1_1_2_0_0_wf : DotDims.WF S8x4096x1024 S8x1024x1024 S8x4096x1024 [2] [1] [1] [2] [0] [0]

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S8x4096x1024_S8x1024x1024_1_1_2_2_0_0 : DotDims S8x4096x1024 S8x4096x1024 S8x1024x1024 where
  lhsContracting := [1]
  rhsContracting := [1]
  lhsNonContracting := [2]
  rhsNonContracting := [2]
  lhsBatch := [0]
  rhsBatch := [0]
  wf := dot_S8x4096x1024_S8x4096x1024_S8x1024x1024_1_1_2_2_0_0_wf
def dot_S8x4096x1024_S8x1024x1024_S8x4096x1024_2_1_1_2_0_0 : DotDims S8x4096x1024 S8x1024x1024 S8x4096x1024 where
  lhsContracting := [2]
  rhsContracting := [1]
  lhsNonContracting := [1]
  rhsNonContracting := [2]
  lhsBatch := [0]
  rhsBatch := [0]
  wf := dot_S8x4096x1024_S8x1024x1024_S8x4096x1024_2_1_1_2_0_0_wf

class Facts : Prop extends Facts₀ where

variable [Facts]
-- ==== Proof.K.OutBody.lean ====
import proofs.«118386_j88364657148296_1_alg».proof.Proof.Gen.Kernel.Launch
import proofs.«118386_j88364657148296_1_alg».proof.Proof.Gen.Kernel.Skeleton
import proofs.«118386_j88364657148296_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The output kernel (second pallas_call), one grid point at a time

The second kernel has no state of its own: at grid point `(b, s)` it reads the row tile `x[b, 512 s .. 512 s + 511, :]`,
the two weight matrices, the bias row and the matrix `kv[b]` the first kernel produced, and stores one tile of the result.
This module states what its one store leaves in the output tile as a function of the five blocks it reads
(`outTile`), proves the kernel body's triple against that function, and packages both as the pipeline's proof data
for ANY contents `V` the buffers hold when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the block
    index has not moved since the last fetch: the window is never cut and never idle, and the body leaves it as found. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The rectangles the body loads and stores through: each is the whole buffer -/

abbrev rTile : Rect S1x512x1024 := Rect.unit (s := S1x512x1024) ![0, 0, 0] S1x512x1024.size inb_S1x512x1024_S1x512x1024_0_0_0
abbrev rMat : Rect S1024x1024 := Rect.unit (s := S1024x1024) ![0, 0] S1024x1024.size inb_S1024x1024_S1024x1024_0_0
abbrev rRow : Rect S1024 := Rect.unit (s := S1024) ![0] S1024.size inb_S1024_S1024_0
abbrev rKv : Rect S1x1024x1024 := Rect.unit (s := S1x1024x1024) ![0, 0, 0] S1x1024x1024.size inb_S1x1024x1024_S1x1024x1024_0_0_0

/-! ## What the body leaves in the output tile -/

/-- The output tile after the body, from the five input blocks (the row tile of `x`, the query weights, the projection
    weights, the bias row, the matrix `kv[b]`): its one store, through the whole-buffer rectangle, of the body's
    arithmetic on what it loaded. -/
def outTile (x0 : Vec F S1x512x1024 .f32) (x1 : Vec F S1024x1024 .bf16) (x2 : Vec F S1024x1024 .bf16) (x3 : Vec F S1024 .f32)
    (x4 : Vec F S1x1024x1024 .f32) : Vec F S1x512x1024 .f32 :=
  View.canon [⟨rTile, k1_pay1 (View.ld x0 rTile) (View.ld x1 rMat) (View.ld x4 rKv) (View.ld x2 rMat) (View.ld x3 rRow)⟩]

/-- That one store covers the tile. -/
theorem outTile_cover (p0 : Vec F S1x512x1024 .f32) (y : S1x512x1024.Idx) :
    ∃ pc ∈ ([⟨rTile, p0⟩] : List (View.Piece (Elt F) S1x512x1024 .f32)), y ∈ pc.1.set :=
  View.cover_of_tiled [⟨rTile, p0⟩] S1x512x1024.size (by rfl) y

/-! ## The body's triple -/

set_option maxHeartbeats 4000000 in
/-- The kernel body on whole staging memrefs, the five inputs' at read contents `x0 … x4` and the output's at anything,
    runs to the continuation holding the inputs' as they were and the output's at `outTile` of them. -/
theorem sound_kernel1 (c : Dev nD) (E : Set ℕ) (i : grid1.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024 .f32) (harg5 : arg5.IsWhole)
    (arg6 : Memref sig .tc .vmem S1x1024x1024 .f32) (harg6 : arg6.IsWhole) (arg7 : Memref sig .tc .vmem S1x512x1024 .f32) (harg7 : arg7.IsWhole)
    (x0 : Vec F S1x512x1024 .f32) (x1 : Vec F S1024x1024 .bf16) (x2 : Vec F S1024x1024 .bf16) (x3 : Vec F S1024 .f32) (x4 : Vec F S1x1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outTile x0 x1 x2 x3 x4)) -∗ K ⟨⟩))
      ⊢ wp frame (wpE (defs₀ (F := F)) Variants.none c none) E (cc1__out_kernel i arg2 harg2 arg3 harg3 arg4 harg4 arg5 harg5 arg6 harg6 arg7 harg7) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outTile_cover _)

/-! ## The pipeline's proof data -/

/-- The proof data of the second pipeline on core `c`: the arrays as the region finds them; after the body at point `t`
    each input's buffer still at its block and the output's at `outTile` of the five input blocks; the invariant is the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outTile (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = outTile (blk1 V c 0 t) (blk1 V c 1 t) (blk1 V c 2 t) (blk1 V c 3 t) (blk1 V c 4 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: each input's staging buffer holds its block, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.AccBody.lean ====
import proofs.«118386_j88364657148296_1_alg».proof.Proof.Gen.Kernel.Launch
import proofs.«118386_j88364657148296_1_alg».proof.Proof.Gen.Kernel.Skeleton
import proofs.«118386_j88364657148296_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The accumulating kernel (first pallas_call), one grid point at a time

At grid point `(b, s)` the first kernel reads the row tile `x[b, 512 s .. 512 s + 511, :]` and the key and value weights,
forms the tile's keys `k` and values `v`, and adds `kᵀ v` into a 1024 × 1024 accumulator it keeps in scratch memory from one
point to the next: zeroed first when `s = 0`, copied to the output block `kv[b]` when `s = 7`. This module states one
step of that accumulation as a function (`accStep`), what the scratch holds after every point by recursion on the point
(`accAt`), the kernel body's triple in each of its three control cases, and the pipeline's proof data with the scratch
carried in the region's invariant, for ANY contents `V` the buffers hold when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body loads and stores through: each is the whole buffer -/

abbrev aTile : Rect S1x512x1024 := Rect.unit (s := S1x512x1024) ![0, 0, 0] S1x512x1024.size inb_S1x512x1024_S1x512x1024_0_0_0
abbrev aMat : Rect S1024x1024 := Rect.unit (s := S1024x1024) ![0, 0] S1024x1024.size inb_S1024x1024_S1024x1024_0_0
abbrev aKv : Rect S1x1024x1024 := Rect.unit (s := S1x1024x1024) ![0, 0, 0] S1x1024x1024.size inb_S1x1024x1024_S1x1024x1024_0_0_0

/-! ## The two branch conditions, in closed form over the grid -/

/-- The body's first `scf.if`: the tile index `s` is 0 (the accumulator is zeroed first). -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The body's second `scf.if`: the tile index `s` is 7 (the accumulator is copied out). -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The input windows are never idle; the output window is idle, and not written back, exactly where `s ≠ 7`. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
theorem live0_3 : ∀ t : Fin cfg0.N, isLast (grid0.coords t) → cfg0.idle 3 (grid0.coords t) = false := by decide +kernel

/-! ## One step of the accumulation -/

/-- The accumulator after one point's body, from the tile of `x`, the key and value weights and the accumulator `a`
    the body adds into: `a + kᵀ v` with `k`, `v` the tile's products with the two weight matrices. -/
def accStep (x0 : Vec F S1x512x1024 .f32) (x1 : Vec F S1024x1024 .bf16) (x2 : Vec F S1024x1024 .bf16) (a : Vec F S1024x1024 .f32) :
    Vec F S1024x1024 .f32 :=
  k0_pay2 (View.ld x0 aTile) (View.ld x1 aMat) (View.ld x2 aMat) a

/-- The scratch buffer as a memref, and the whole-buffer facts the reads below use. -/
abbrev scr : Memref sig .tc .vmem S1024x1024 .f32 := Memref.whole cc0_scratch0
theorem hzMat : (![0, 0] : Fin S1024x1024.rank → Nat) = fun _ => 0 := by funext a; fin_cases a <;> rfl
theorem hzKv : (![0, 0, 0] : Fin S1x1024x1024.rank → Nat) = fun _ => 0 := by funext a; fin_cases a <;> rfl

/-! ## The body's triple, case by case

The three control cases the grid meets: the first tile of a batch row (`s = 0`: zero, then accumulate), a middle tile
(accumulate), the last tile (`s = 7`: accumulate, then copy the accumulator to the output block). In each the kernel
body on whole staging memrefs runs to the continuation holding the inputs as they were and the scratch at one step of
the accumulation. -/

set_option maxHeartbeats 4000000 in
/-- First tile: whatever the scratch held, it ends at one step from the zero matrix; the output block is not touched. -/
theorem run_first (c : Dev nD) (E : Set ℕ) (i : grid0.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole)
    (hc0 : isFirst i) (hc1 : ¬isLast i)
    (x0 : Vec F S1x512x1024 .f32) (x1 : Vec F S1024x1024 .bf16) (x2 : Vec F S1024x1024 .bf16) (xi3 : Vec F S1x1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (accStep x0 x1 x2 (k0_pay1 (F := F)))) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero hzMat inb_S1024x1024_S1024x1024_0_0 y⟩),
    View.canon_cons_unit_zero (S := S1024x1024) hzMat]
  unfold accStep
  simp only [View.readCov_unit_zero (S := S1024x1024) _ hzMat]
  rfl

set_option maxHeartbeats 4000000 in
/-- Middle tile: the scratch goes from `a` to one step from `a`; the output block is not touched. -/
theorem run_mid (c : Dev nD) (E : Set ℕ) (i : grid0.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole)
    (hc0 : ¬isFirst i) (hc1 : ¬isLast i)
    (x0 : Vec F S1x512x1024 .f32) (x1 : Vec F S1024x1024 .bf16) (x2 : Vec F S1024x1024 .bf16) (xi3 : Vec F S1x1024x1024 .f32)
    (a : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (accStep x0 x1 x2 a)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0 hf1 hf2 hf3 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero hzMat inb_S1024x1024_S1024x1024_0_0 y⟩),
    View.canon_cons_unit_zero (S := S1024x1024) hzMat]
  unfold accStep
  refine Eq.trans ?_ (congrArg (k0_pay2 _ _ _) (View.ld_unit_zero (S := S1024x1024) hzMat inb_S1024x1024_S1024x1024_0_0 _))
  rfl

set_option maxHeartbeats 4000000 in
/-- Last tile: the scratch goes from `a` to one step from `a`, and the output block ends holding that matrix. -/
theorem run_last (c : Dev nD) (E : Set ℕ) (i : grid0.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole)
    (hc0 : ¬isFirst i) (hc1 : isLast i)
    (x0 : Vec F S1x512x1024 .f32) (x1 : Vec F S1024x1024 .bf16) (x2 : Vec F S1024x1024 .bf16)
    (a : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (accStep x0 x1 x2 a))
            ∗ owns (c : Thread nD τ) arg6 fullShare (accStep x0 x1 x2 a)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0 hf1 hf2 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  have hacc : View.readCov (Val := Elt F) arg6.view
        [(⟨aMat, k0_pay2 (View.readAt (Elt F) arg2.view aTile.toLoadRect f0) (View.readAt (Elt F) arg3.view aMat.toLoadRect f1)
            (View.readAt (Elt F) arg4.view aMat.toLoadRect f2) (View.readAt (Elt F) arg6.view aMat.toLoadRect f6)⟩ : View.Piece (Elt F) S1024x1024 .f32)]
        aMat.toLoadRect
      = accStep (View.read (Elt F) arg2.view f0) (View.read (Elt F) arg3.view f1) (View.read (Elt F) arg4.view f2) (View.read (Elt F) arg6.view f6) := by
    rw [View.readCov_unit_zero (S := S1024x1024) _ hzMat]
    unfold accStep
    refine Eq.trans ?_ (congrArg (k0_pay2 _ _ _) (View.ld_unit_zero (S := S1024x1024) hzMat inb_S1024x1024_S1024x1024_0_0 _))
    rfl
  isplitl [H3]
  · iexists _; isplitr
    swap; · iexact H3
    ipureintro
    sl_unfold_words
    rw [View.read_writes_eq_canon _ _ _ (fun y => ⟨_, List.mem_cons_self, View.mem_set_unit_zero hzKv inb_S1x1024x1024_S1x1024x1024_0_0_0 y⟩),
      View.canon_cons_unit_zero (S := S1x1024x1024) hzKv]
    exact congrArg k0_pay3 hacc
  iexists _; isplitr
  swap; · iexact H6
  ipureintro
  sl_unfold_words
  rw [View.read_writes_eq_canon _ _ _ (fun y => ⟨_, List.mem_cons_self, View.mem_set_unit_zero hzMat inb_S1024x1024_S1024x1024_0_0 y⟩),
    View.canon_cons_unit_zero (S := S1024x1024) hzMat]
  unfold accStep
  refine Eq.trans ?_ (congrArg (k0_pay2 _ _ _) (View.ld_unit_zero (S := S1024x1024) hzMat inb_S1024x1024_S1024x1024_0_0 _))
  rfl

/-! ## What the scratch holds after each point -/

/-- The accumulator after the body at position `n` of the grid (row-major: batch row `n / 8`, tile `n % 8`): at a first
    tile one step from the zero matrix, otherwise one step from what the point before left. -/
def accAt (c : Dev nD) : (n : ℕ) → n < cfg0.N → Vec F S1024x1024 .f32
  | 0, hn => accStep (blk0 V c 0 ⟨0, hn⟩) (blk0 V c 1 ⟨0, hn⟩) (blk0 V c 2 ⟨0, hn⟩) (k0_pay1 (F := F))
  | n + 1, hn =>
    if (n + 1) % 8 = 0 then
      accStep (blk0 V c 0 ⟨n + 1, hn⟩) (blk0 V c 1 ⟨n + 1, hn⟩) (blk0 V c 2 ⟨n + 1, hn⟩) (k0_pay1 (F := F))
    else
      accStep (blk0 V c 0 ⟨n + 1, hn⟩) (blk0 V c 1 ⟨n + 1, hn⟩) (blk0 V c 2 ⟨n + 1, hn⟩) (accAt c n (Nat.lt_of_succ_lt hn))

/-- At a first tile the accumulation restarts from zero. -/
theorem accAt_first (c : Dev nD) (t : Fin cfg0.N) (h : t.val % 8 = 0) :
    accAt V c t.val t.isLt = accStep (blk0 V c 0 t) (blk0 V c 1 t) (blk0 V c 2 t) (k0_pay1 (F := F)) := by
  obtain ⟨n, hn⟩ := t
  cases n with
  | zero => rfl
  | succ n => exact (if_pos h)

/-- At any other tile it continues from what the point before left. -/
theorem accAt_next (c : Dev nD) (t : Fin cfg0.N) (h : ¬t.val % 8 = 0) :
    accAt V c t.val t.isLt = accStep (blk0 V c 0 t) (blk0 V c 1 t) (blk0 V c 2 t)
      (accAt V c (t.val - 1) (Nat.lt_of_le_of_lt (Nat.sub_le _ _) t.isLt)) := by
  obtain ⟨n, hn⟩ := t
  cases n with
  | zero => exact absurd (Nat.zero_mod _) h
  | succ n => exact (if_neg h)

/-! ## The region's invariant: the scratch carried between points -/

/-- The scoped buffers of the core that are neither staging buffers of this pipeline nor its scratch: the second
    pipeline's staging buffers, at some contents each. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region is handed besides its windows: the scratch and those buffers at some contents, and the generator
    register at some state. -/
theorem PhiA0_eq (c : Dev nD) :
    (Pipeline.ΦA spec0 c : sProp 𝕄)
      = iprop(((∃ d, owns (c : Thread nD τ) scr fullShare d) ∗ others c) ∗ (∃ r, prngReg c r)) := by
  unfold Pipeline.ΦA others; rw [scopedRest0_eq]; simp only [scr, owns_whole]; try rfl

/-- The invariant before position `n`: before the first point what the region is handed; afterwards the same with the
    scratch NAMED: it holds what the point before left (`accAt`). -/
def PhiS (c : Dev nD) : (n : ℕ) → n ≤ cfg0.N → sProp 𝕄
  | 0, _ => Pipeline.ΦA spec0 c
  | n + 1, hn => iprop((owns (c : Thread nD τ) scr fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scr fullShare (accAt V c n hn) ∗ others c) ∗ (∃ r, prngReg c r)) := rfl

theorem PhiS_pos (c : Dev nD) (n : ℕ) (h : n ≤ cfg0.N) (hz : n ≠ 0) :
    PhiS V c n h = iprop((owns (c : Thread nD τ) scr fullShare (accAt V c (n - 1) (by omega)) ∗ others c) ∗ (∃ r, prngReg c r)) := by
  cases n with
  | zero => exact absurd rfl hz
  | succ n => rfl

/-! ## The pipeline's proof data -/

/-- The proof data of the first pipeline on core `c`: the arrays as the region finds them; after the body at point `t`
    each input's buffer still at its block, and the output block — consulted only where it is written back, at the last
    tile of a batch row — at the accumulator the point leaves; the invariant carries the scratch; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = k0_pay3 (accAt V c t.val t.isLt) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' staging buffers hold their blocks; the tile index decides the case; the invariant
    hands the body the scratch at what the point before left (at anything before the first point, and at a first tile
    whatever it held is overwritten) and takes it back at this point's accumulator; where the output block is not
    written back the body leaves it as it found it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 64 := lt_of_lt_of_eq t.isLt (show cfg0.N = 64 from N_0)
  by_cases h0 : t.val % 8 = 0
  · have h1 : ¬t.val % 8 = 7 := by omega
    have hl : ¬isLast (grid0.coords t) := fun h => h1 ((isLast_iff t).mp h)
    rw [Dat.leavesExact_idle (dat0 V c) 3 t (idle0_3 t hl) (noFlush0_3 t hl), accAt_first V c t h0]
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩⟩
      iapply (run_first c Set.univ (grid0.coords t) _ _ _ _ _ _ _ _ _ _ ((isFirst_iff t).mpr h0) hl
        (blk0 V c 0 t) (blk0 V c 1 t) (blk0 V c 2 t) ((dat0 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_first c Set.univ (grid0.coords t) _ _ _ _ _ _ _ _ _ _ ((isFirst_iff t).mpr h0) hl
        (blk0 V c 0 t) (blk0 V c 1 t) (blk0 V c 2 t) ((dat0 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hf : ¬isFirst (grid0.coords t) := fun h => h0 ((isFirst_iff t).mp h)
    rw [accAt_next V c t h0, PhiS_castSucc V c t, PhiS_pos V c _ _ hz]
    by_cases h1 : t.val % 8 = 7
    · have hl : isLast (grid0.coords t) := (isLast_iff t).mpr h1
      rw [show (dat0 V c).leavesExact 3 t = owns (c : Thread nD τ) (st0_3 t) fullShare ((dat0 V c).after 3 t) from by
        unfold Dat.leavesExact; rw [live0_3 t hl], after0_3, accAt_next V c t h0]
      iintro ⟨⟨⟨HS, Hoth⟩, Hg⟩, Ho, ⟨%d0, H0⟩, ⟨%d1, H1⟩, ⟨%d2, H2⟩, ⟨%d3, H3⟩⟩
      iapply (run_last c Set.univ (grid0.coords t) _ _ _ _ _ _ _ _ _ _ hf hl
        (blk0 V c 0 t) (blk0 V c 1 t) (blk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexact H3
    · have hl : ¬isLast (grid0.coords t) := fun h => h1 ((isLast_iff t).mp h)
      rw [Dat.leavesExact_idle (dat0 V c) 3 t (idle0_3 t hl) (noFlush0_3 t hl)]
      iintro ⟨⟨⟨HS, Hoth⟩, Hg⟩, Ho, ⟨%d0, H0⟩, ⟨%d1, H1⟩, ⟨%d2, H2⟩, ⟨%d3, H3⟩⟩
      iapply (run_mid c Set.univ (grid0.coords t) _ _ _ _ _ _ _ _ _ _ hf hl
        (blk0 V c 0 t) (blk0 V c 1 t) (blk0 V c 2 t) ((dat0 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: what the scratch holds is forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS, Hoth⟩, Hg⟩
  isplitr [Hg]
  · isplitl [HS]; · iexists _; iexact HS
    iexact Hoth
  iexact Hg

end Cert.Kernel.Hand

end
-- ==== Proof.K.Launch.lean ====
import proofs.«118386_j88364657148296_1_alg».proof.Proof.K.OutBody
import proofs.«118386_j88364657148296_1_alg».proof.Proof.K.AccBody
import proofs.«118386_j88364657148296_1_alg».proof.Proof.Gen.Kernel.Regions

/-!
# The two pallas_calls as segments of the program, and the frame

The program is four casts of the weights, the accumulating kernel, the output kernel. Between two of these items the
core holds every buffer that outlives a kernel at a known valuation: the launch contents, then the casts applied, then
the key-value array at what the first kernel's write-backs leave, then the result array at what the second kernel's
leave. Each kernel region is entered from that state and left at the next: its arrays are split out of the held
buffers and put back, the generator register goes into the region's invariant and comes back, nothing is ever owed.
With both regions' records the generated conditional frame gives the frame claim.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- When the accumulating kernel is entered: the launch contents with the four casts applied. -/
abbrev atAcc (c : Dev nD) (b : Ref sig .tc) : Buf (Elt F) ((c : Thread nD τ).loc b) := Gen.V1 m c b

/-- What the accumulating kernel's write-backs leave in the key-value array. -/
def kvOut (c : Dev nD) : Buf (Elt F) ((c : Thread nD τ).loc main_v4) := (dat0 (atAcc m) c).arrAt 3 cfg0.N

/-- The contents the regions leave, as far as the key-value array goes (anything elsewhere). -/
def outsKv : Gen.Outs (F := F) := fun J r c =>
  if h : r = main_v4 then h ▸ kvOut m c else Gen.V1 m c r

/-- When the output kernel is entered: the same with the key-value array at what the first kernel left. -/
abbrev atOut (c : Dev nD) (b : Ref sig .tc) : Buf (Elt F) ((c : Thread nD τ).loc b) := Gen.V2 m (outsKv m) c b

/-- What the output kernel's write-backs leave in the result array. -/
def resOut (c : Dev nD) : Buf (Elt F) ((c : Thread nD τ).loc main_v5) := (dat1 (atOut m) c).arrAt 5 cfg1.N

/-- The contents both regions leave: the key-value array after the first, the result array after the second. -/
def outs : Gen.Outs (F := F) := fun J r c =>
  if h : r = main_v4 then h ▸ kvOut m c else if h' : r = main_v5 then h' ▸ resOut m c else Gen.V1 m c r

theorem outsKv_kv (J : ℕ) (c : Dev nD) : outsKv m J main_v4 c = kvOut m c := by
  unfold outsKv; rw [dif_pos rfl]
theorem outs_kv (J : ℕ) (c : Dev nD) : outs m J main_v4 c = kvOut m c := by
  unfold outs; rw [dif_pos rfl]
theorem outs_res (J : ℕ) (c : Dev nD) : outs m J main_v5 c = resOut m c := by
  unfold outs; rw [dif_neg (by decide), dif_pos rfl]

/-- The valuation after the first region does not depend on what is said of the result array. -/
theorem V2_outs (c : Dev nD) : Gen.V2 m (outs m) c = Gen.V2 m (outsKv m) c := by
  unfold Gen.V2; rw [outs_kv, outsKv_kv]

/-! ## The proof data of both pipelines -/

/-- Each pipeline's proof data at its region's entry contents. -/
def pdats : (p : Fin 2) → (c : Dev nD) → Dat τ (Elt F) Unit ℕ (UR sig nD τ) ℕ (cfgs p) c
  | ⟨0, _⟩ => fun c => dat0 (atAcc m) c
  | ⟨1, _⟩ => fun c => dat1 (atOut m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the held buffers through every item: the generator register at some state, and nothing owed. -/
abbrev rest (c : Dev nD) : sProp 𝕄 := iprop((∃ r, prngReg c r) ∗ ∃ W, owes (c : Thread nD τ) (0 : CellTallies nD τ sig Unit) W)

/-! ## Each region's arrays against the valuations -/

theorem kv_arr (c : Dev nD) (w : Fin cfg0.W) :
    (dat0 (atAcc m) c).arrAt w cfg0.N = (fun b : Ref sig .tc => Gen.V2 m (outs m) c b) (Pipeline.arrRef spec0 w) := by
  rw [V2_outs]
  match w with
  | ⟨0, _⟩ => exact ((dat0 (atAcc m) c).arrAt_in 0 rfl _).trans (by rw [A_eq0]; exact (Gen.V2_of m (outsKv m) c main_arg0 (by decide)).symm)
  | ⟨1, _⟩ => exact ((dat0 (atAcc m) c).arrAt_in 1 rfl _).trans (by rw [A_eq0]; exact (Gen.V2_of m (outsKv m) c main_v1 (by decide)).symm)
  | ⟨2, _⟩ => exact ((dat0 (atAcc m) c).arrAt_in 2 rfl _).trans (by rw [A_eq0]; exact (Gen.V2_of m (outsKv m) c main_v2 (by decide)).symm)
  | ⟨3, _⟩ =>
    show kvOut m c = Function.update (Gen.V1 m c) main_v4 (outsKv m 2 main_v4 c) (Proc.devRef .tc main_v4)
    rw [Function.update_self, outsKv_kv]

theorem kv_rest (c : Dev nD) : ∀ b : Ref sig .tc, b ∉ Finset.univ.image (Pipeline.arrRef spec0) →
    (fun b : Ref sig .tc => Gen.V2 m (outs m) c b) b = (fun b : Ref sig .tc => Gen.V1 m c b) b := by
  intro b hb
  exact Gen.V2_of m (outs m) c b (fun h => hb (Finset.mem_image.mpr ⟨3, Finset.mem_univ _, (List.mem_singleton.mp h).symm⟩))

theorem res_arr (c : Dev nD) (w : Fin cfg1.W) :
    (dat1 (atOut m) c).arrAt w cfg1.N = (fun b : Ref sig .tc => Gen.V3 m (outs m) c b) (Pipeline.arrRef spec1 w) := by
  have hV : ∀ r : Ref sig .tc, r ∉ ([main_v5] : List (Ref sig .tc)) → Gen.V3 m (outs m) c r = atOut m c r := fun r hr => by
    rw [Gen.V3_of m (outs m) c r hr, V2_outs]
  match w with
  | ⟨0, _⟩ => exact ((dat1 (atOut m) c).arrAt_in 0 rfl _).trans (by rw [A_eq1]; exact (hV main_arg0 (by decide)).symm)
  | ⟨1, _⟩ => exact ((dat1 (atOut m) c).arrAt_in 1 rfl _).trans (by rw [A_eq1]; exact (hV main_v0 (by decide)).symm)
  | ⟨2, _⟩ => exact ((dat1 (atOut m) c).arrAt_in 2 rfl _).trans (by rw [A_eq1]; exact (hV main_v3 (by decide)).symm)
  | ⟨3, _⟩ => exact ((dat1 (atOut m) c).arrAt_in 3 rfl _).trans (by rw [A_eq1]; exact (hV main_arg5 (by decide)).symm)
  | ⟨4, _⟩ => exact ((dat1 (atOut m) c).arrAt_in 4 rfl _).trans (by rw [A_eq1]; exact (hV main_v4 (by decide)).symm)
  | ⟨5, _⟩ =>
    show resOut m c = Function.update (Gen.V2 m (outs m) c) main_v5 (outs m 3 main_v5 c) (Proc.devRef .tc main_v5)
    rw [Function.update_self, outs_res]

theorem res_rest (c : Dev nD) : ∀ b : Ref sig .tc, b ∉ Finset.univ.image (Pipeline.arrRef spec1) →
    (fun b : Ref sig .tc => Gen.V3 m (outs m) c b) b = (fun b : Ref sig .tc => Gen.V2 m (outs m) c b) b := by
  intro b hb
  exact Gen.V3_of m (outs m) c b (fun h => hb (Finset.mem_image.mpr ⟨5, Finset.mem_univ _, (List.mem_singleton.mp h).symm⟩))

/-! ## The regions as segments -/

set_option backward.isDefEq.respectTransparency.types false in
/-- The accumulating kernel's region: entered from the held buffers after the casts, left at the same with the key-value
    array at what its write-backs leave. The scratch and the other scoped buffers go into the invariant with the
    generator register and come back; the kernel has no semaphore of its own; nothing is owed. -/
def regAcc : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atAcc m) c).loose
  hwaits := Pipeline.hwaits_of_owed_zero _ _ _ _ L lv 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (atAcc m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atAcc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (atAcc m) c
    rw [show (pdats m 0 c).Φ 0 = (dat0 (atAcc m) c).Φ 0 from rfl]
    unfold Pipeline.ΦA at h
    iintro ⟨Hp, -, Hr⟩
    iapply h
    isplitl [Hr]; · iexact Hr
    iexact Hp
  hout c := by
    rw [Pipeline.ownSems0_none]
    refine (hout0 (atAcc m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atAcc m c) (fun b : Ref sig .tc => Gen.V2 m (outs m) c b) ((pdats m 0 c).arrAt · cfg0.N) (kv_arr m c) (kv_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output kernel's region: entered from the held buffers with the key-value array as the first kernel left it, left
    at the same with the result array at what its write-backs leave. It keeps no state: the scoped buffers no window
    stages and the generator register pass through its invariant untouched. -/
def regOut : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atOut m) c).loose
  hwaits := Pipeline.hwaits_of_owed_zero _ _ _ _ L lv 1 fun _ _ => rfl
  pre c := iprop(StableHlo.held (c : Thread nD τ) (Pipeline.ucRefs τ sig) (Gen.V2 m (outs m) c) ∗ rest c)
  post c := iprop(StableHlo.held (c : Thread nD τ) (Pipeline.ucRefs τ sig) (Gen.V3 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (atOut m c)
  hentry c := by
    rw [Pipeline.ownSems0_none, V2_outs]
    have hsplit := Pipeline.arrays_of_unscopedBufs (p := 1) (pcfgs (F := F)) adm (pdats m) launch1.win launch1.arr_whole c
      ((pdats m 1 c).share_full fun _ => rfl) (atOut m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b : Ref sig .tc => Gen.V2 m (outs m) c b) (fun b : Ref sig .tc => Gen.V3 m (outs m) c b) ((pdats m 1 c).arrAt · cfg1.N) (res_arr m c) (res_rest m c)
    rw [Pipeline.unscopedBufs_held] at hjoin
    rw [show (Pipeline.unscopedRest (Ix := Unit) (Name := ℕ) (U := UR sig nD τ) (Lvl := ℕ) spec1 c (atOut m c) : sProp 𝕄)
        = Pipeline.unscopedRest spec1 c (fun b : Ref sig .tc => Gen.V2 m (outs m) c b) from by rw [V2_outs]]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- The frame claim at any float instance: the generated conditional frame, from the two regions' records; what rides
    beside the held buffers is made at launch from what each core is dealt, and ends owing nothing. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := regAcc m) (hpre0 := fun _ => .rfl) (hpost0 := fun _ => .rfl)
    (R1 := regOut m) (hpre1 := fun _ => .rfl) (hpost1 := fun _ => .rfl)

end Cert.Kernel.Hand

end
-- ==== Proof.KI.OutBody.lean ====
import proofs.«118386_j88364657148296_1_alg».proof.Proof.Gen.KernelIdeal.Launch
import proofs.«118386_j88364657148296_1_alg».proof.Proof.Gen.KernelIdeal.Skeleton
import proofs.«118386_j88364657148296_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The output kernel (second pallas_call), one grid point at a time

The second kernel has no state of its own: at grid point `(b, s)` it reads the row tile `x[b, 512 s .. 512 s + 511, :]`,
the two weight matrices, the bias row and the matrix `kv[b]` the first kernel produced, and stores one tile of the result.
This module states what its one store leaves in the output tile as a function of the five blocks it reads
(`outTile`), proves the kernel body's triple against that function, and packages both as the pipeline's proof data
for ANY contents `V` the buffers hold when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the block
    index has not moved since the last fetch: the window is never cut and never idle, and the body leaves it as found. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The rectangles the body loads and stores through: each is the whole buffer -/

abbrev rTile : Rect S1x512x1024 := Rect.unit (s := S1x512x1024) ![0, 0, 0] S1x512x1024.size inb_S1x512x1024_S1x512x1024_0_0_0
abbrev rMat : Rect S1024x1024 := Rect.unit (s := S1024x1024) ![0, 0] S1024x1024.size inb_S1024x1024_S1024x1024_0_0
abbrev rRow : Rect S1024 := Rect.unit (s := S1024) ![0] S1024.size inb_S1024_S1024_0
abbrev rKv : Rect S1x1024x1024 := Rect.unit (s := S1x1024x1024) ![0, 0, 0] S1x1024x1024.size inb_S1x1024x1024_S1x1024x1024_0_0_0

/-! ## What the body leaves in the output tile -/

/-- The output tile after the body, from the five input blocks (the row tile of `x`, the query weights, the projection
    weights, the bias row, the matrix `kv[b]`): its one store, through the whole-buffer rectangle, of the body's
    arithmetic on what it loaded. -/
def outTile (x0 : Vec F S1x512x1024 .f32) (x1 : Vec F S1024x1024 .bf16) (x2 : Vec F S1024x1024 .bf16) (x3 : Vec F S1024 .f32)
    (x4 : Vec F S1x1024x1024 .f32) : Vec F S1x512x1024 .f32 :=
  View.canon [⟨rTile, k1_pay1 (View.ld x0 rTile) (View.ld x1 rMat) (View.ld x4 rKv) (View.ld x2 rMat) (View.ld x3 rRow)⟩]

/-- That one store covers the tile. -/
theorem outTile_cover (p0 : Vec F S1x512x1024 .f32) (y : S1x512x1024.Idx) :
    ∃ pc ∈ ([⟨rTile, p0⟩] : List (View.Piece (Elt F) S1x512x1024 .f32)), y ∈ pc.1.set :=
  View.cover_of_tiled [⟨rTile, p0⟩] S1x512x1024.size (by rfl) y

/-! ## The body's triple -/

set_option maxHeartbeats 4000000 in
/-- The kernel body on whole staging memrefs, the five inputs' at read contents `x0 … x4` and the output's at anything,
    runs to the continuation holding the inputs' as they were and the output's at `outTile` of them. -/
theorem sound_kernel1 (c : Dev nD) (E : Set ℕ) (i : grid1.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024 .f32) (harg5 : arg5.IsWhole)
    (arg6 : Memref sig .tc .vmem S1x1024x1024 .f32) (harg6 : arg6.IsWhole) (arg7 : Memref sig .tc .vmem S1x512x1024 .f32) (harg7 : arg7.IsWhole)
    (x0 : Vec F S1x512x1024 .f32) (x1 : Vec F S1024x1024 .bf16) (x2 : Vec F S1024x1024 .bf16) (x3 : Vec F S1024 .f32) (x4 : Vec F S1x1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outTile x0 x1 x2 x3 x4)) -∗ K ⟨⟩))
      ⊢ wp frame (wpE (defs₀ (F := F)) Variants.none c none) E (cc1__out_kernel i arg2 harg2 arg3 harg3 arg4 harg4 arg5 harg5 arg6 harg6 arg7 harg7) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outTile_cover _)

/-! ## The pipeline's proof data -/

/-- The proof data of the second pipeline on core `c`: the arrays as the region finds them; after the body at point `t`
    each input's buffer still at its block and the output's at `outTile` of the five input blocks; the invariant is the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outTile (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = outTile (blk1 V c 0 t) (blk1 V c 1 t) (blk1 V c 2 t) (blk1 V c 3 t) (blk1 V c 4 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: each input's staging buffer holds its block, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.AccBody.lean ====
import proofs.«118386_j88364657148296_1_alg».proof.Proof.Gen.KernelIdeal.Launch
import proofs.«118386_j88364657148296_1_alg».proof.Proof.Gen.KernelIdeal.Skeleton
import proofs.«118386_j88364657148296_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The accumulating kernel (first pallas_call), one grid point at a time

At grid point `(b, s)` the first kernel reads the row tile `x[b, 512 s .. 512 s + 511, :]` and the key and value weights,
forms the tile's keys `k` and values `v`, and adds `kᵀ v` into a 1024 × 1024 accumulator it keeps in scratch memory from one
point to the next: zeroed first when `s = 0`, copied to the output block `kv[b]` when `s = 7`. This module states one
step of that accumulation as a function (`accStep`), what the scratch holds after every point by recursion on the point
(`accAt`), the kernel body's triple in each of its three control cases, and the pipeline's proof data with the scratch
carried in the region's invariant, for ANY contents `V` the buffers hold when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body loads and stores through: each is the whole buffer -/

abbrev aTile : Rect S1x512x1024 := Rect.unit (s := S1x512x1024) ![0, 0, 0] S1x512x1024.size inb_S1x512x1024_S1x512x1024_0_0_0
abbrev aMat : Rect S1024x1024 := Rect.unit (s := S1024x1024) ![0, 0] S1024x1024.size inb_S1024x1024_S1024x1024_0_0
abbrev aKv : Rect S1x1024x1024 := Rect.unit (s := S1x1024x1024) ![0, 0, 0] S1x1024x1024.size inb_S1x1024x1024_S1x1024x1024_0_0_0

/-! ## The two branch conditions, in closed form over the grid -/

/-- The body's first `scf.if`: the tile index `s` is 0 (the accumulator is zeroed first). -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The body's second `scf.if`: the tile index `s` is 7 (the accumulator is copied out). -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The input windows are never idle; the output window is idle, and not written back, exactly where `s ≠ 7`. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
theorem live0_3 : ∀ t : Fin cfg0.N, isLast (grid0.coords t) → cfg0.idle 3 (grid0.coords t) = false := by decide +kernel

/-! ## One step of the accumulation -/

/-- The accumulator after one point's body, from the tile of `x`, the key and value weights and the accumulator `a`
    the body adds into: `a + kᵀ v` with `k`, `v` the tile's products with the two weight matrices. -/
def accStep (x0 : Vec F S1x512x1024 .f32) (x1 : Vec F S1024x1024 .bf16) (x2 : Vec F S1024x1024 .bf16) (a : Vec F S1024x1024 .f32) :
    Vec F S1024x1024 .f32 :=
  k0_pay2 (View.ld x0 aTile) (View.ld x1 aMat) (View.ld x2 aMat) a

/-- The scratch buffer as a memref, and the whole-buffer facts the reads below use. -/
abbrev scr : Memref sig .tc .vmem S1024x1024 .f32 := Memref.whole cc0_scratch0
theorem hzMat : (![0, 0] : Fin S1024x1024.rank → Nat) = fun _ => 0 := by funext a; fin_cases a <;> rfl
theorem hzKv : (![0, 0, 0] : Fin S1x1024x1024.rank → Nat) = fun _ => 0 := by funext a; fin_cases a <;> rfl

/-! ## The body's triple, case by case

The three control cases the grid meets: the first tile of a batch row (`s = 0`: zero, then accumulate), a middle tile
(accumulate), the last tile (`s = 7`: accumulate, then copy the accumulator to the output block). In each the kernel
body on whole staging memrefs runs to the continuation holding the inputs as they were and the scratch at one step of
the accumulation. -/

set_option maxHeartbeats 4000000 in
/-- First tile: whatever the scratch held, it ends at one step from the zero matrix; the output block is not touched. -/
theorem run_first (c : Dev nD) (E : Set ℕ) (i : grid0.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole)
    (hc0 : isFirst i) (hc1 : ¬isLast i)
    (x0 : Vec F S1x512x1024 .f32) (x1 : Vec F S1024x1024 .bf16) (x2 : Vec F S1024x1024 .bf16) (xi3 : Vec F S1x1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (accStep x0 x1 x2 (k0_pay1 (F := F)))) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero hzMat inb_S1024x1024_S1024x1024_0_0 y⟩),
    View.canon_cons_unit_zero (S := S1024x1024) hzMat]
  unfold accStep
  simp only [View.readCov_unit_zero (S := S1024x1024) _ hzMat]
  rfl

set_option maxHeartbeats 4000000 in
/-- Middle tile: the scratch goes from `a` to one step from `a`; the output block is not touched. -/
theorem run_mid (c : Dev nD) (E : Set ℕ) (i : grid0.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole)
    (hc0 : ¬isFirst i) (hc1 : ¬isLast i)
    (x0 : Vec F S1x512x1024 .f32) (x1 : Vec F S1024x1024 .bf16) (x2 : Vec F S1024x1024 .bf16) (xi3 : Vec F S1x1024x1024 .f32)
    (a : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (accStep x0 x1 x2 a)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0 hf1 hf2 hf3 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero hzMat inb_S1024x1024_S1024x1024_0_0 y⟩),
    View.canon_cons_unit_zero (S := S1024x1024) hzMat]
  unfold accStep
  refine Eq.trans ?_ (congrArg (k0_pay2 _ _ _) (View.ld_unit_zero (S := S1024x1024) hzMat inb_S1024x1024_S1024x1024_0_0 _))
  rfl

set_option maxHeartbeats 4000000 in
/-- Last tile: the scratch goes from `a` to one step from `a`, and the output block ends holding that matrix. -/
theorem run_last (c : Dev nD) (E : Set ℕ) (i : grid0.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole)
    (hc0 : ¬isFirst i) (hc1 : isLast i)
    (x0 : Vec F S1x512x1024 .f32) (x1 : Vec F S1024x1024 .bf16) (x2 : Vec F S1024x1024 .bf16)
    (a : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (accStep x0 x1 x2 a))
            ∗ owns (c : Thread nD τ) arg6 fullShare (accStep x0 x1 x2 a)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0 hf1 hf2 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  have hacc : View.readCov (Val := Elt F) arg6.view
        [(⟨aMat, k0_pay2 (View.readAt (Elt F) arg2.view aTile.toLoadRect f0) (View.readAt (Elt F) arg3.view aMat.toLoadRect f1)
            (View.readAt (Elt F) arg4.view aMat.toLoadRect f2) (View.readAt (Elt F) arg6.view aMat.toLoadRect f6)⟩ : View.Piece (Elt F) S1024x1024 .f32)]
        aMat.toLoadRect
      = accStep (View.read (Elt F) arg2.view f0) (View.read (Elt F) arg3.view f1) (View.read (Elt F) arg4.view f2) (View.read (Elt F) arg6.view f6) := by
    rw [View.readCov_unit_zero (S := S1024x1024) _ hzMat]
    unfold accStep
    refine Eq.trans ?_ (congrArg (k0_pay2 _ _ _) (View.ld_unit_zero (S := S1024x1024) hzMat inb_S1024x1024_S1024x1024_0_0 _))
    rfl
  isplitl [H3]
  · iexists _; isplitr
    swap; · iexact H3
    ipureintro
    sl_unfold_words
    rw [View.read_writes_eq_canon _ _ _ (fun y => ⟨_, List.mem_cons_self, View.mem_set_unit_zero hzKv inb_S1x1024x1024_S1x1024x1024_0_0_0 y⟩),
      View.canon_cons_unit_zero (S := S1x1024x1024) hzKv]
    exact congrArg k0_pay3 hacc
  iexists _; isplitr
  swap; · iexact H6
  ipureintro
  sl_unfold_words
  rw [View.read_writes_eq_canon _ _ _ (fun y => ⟨_, List.mem_cons_self, View.mem_set_unit_zero hzMat inb_S1024x1024_S1024x1024_0_0 y⟩),
    View.canon_cons_unit_zero (S := S1024x1024) hzMat]
  unfold accStep
  refine Eq.trans ?_ (congrArg (k0_pay2 _ _ _) (View.ld_unit_zero (S := S1024x1024) hzMat inb_S1024x1024_S1024x1024_0_0 _))
  rfl

/-! ## What the scratch holds after each point -/

/-- The accumulator after the body at position `n` of the grid (row-major: batch row `n / 8`, tile `n % 8`): at a first
    tile one step from the zero matrix, otherwise one step from what the point before left. -/
def accAt (c : Dev nD) : (n : ℕ) → n < cfg0.N → Vec F S1024x1024 .f32
  | 0, hn => accStep (blk0 V c 0 ⟨0, hn⟩) (blk0 V c 1 ⟨0, hn⟩) (blk0 V c 2 ⟨0, hn⟩) (k0_pay1 (F := F))
  | n + 1, hn =>
    if (n + 1) % 8 = 0 then
      accStep (blk0 V c 0 ⟨n + 1, hn⟩) (blk0 V c 1 ⟨n + 1, hn⟩) (blk0 V c 2 ⟨n + 1, hn⟩) (k0_pay1 (F := F))
    else
      accStep (blk0 V c 0 ⟨n + 1, hn⟩) (blk0 V c 1 ⟨n + 1, hn⟩) (blk0 V c 2 ⟨n + 1, hn⟩) (accAt c n (Nat.lt_of_succ_lt hn))

/-- At a first tile the accumulation restarts from zero. -/
theorem accAt_first (c : Dev nD) (t : Fin cfg0.N) (h : t.val % 8 = 0) :
    accAt V c t.val t.isLt = accStep (blk0 V c 0 t) (blk0 V c 1 t) (blk0 V c 2 t) (k0_pay1 (F := F)) := by
  obtain ⟨n, hn⟩ := t
  cases n with
  | zero => rfl
  | succ n => exact (if_pos h)

/-- At any other tile it continues from what the point before left. -/
theorem accAt_next (c : Dev nD) (t : Fin cfg0.N) (h : ¬t.val % 8 = 0) :
    accAt V c t.val t.isLt = accStep (blk0 V c 0 t) (blk0 V c 1 t) (blk0 V c 2 t)
      (accAt V c (t.val - 1) (Nat.lt_of_le_of_lt (Nat.sub_le _ _) t.isLt)) := by
  obtain ⟨n, hn⟩ := t
  cases n with
  | zero => exact absurd (Nat.zero_mod _) h
  | succ n => exact (if_neg h)

/-! ## The region's invariant: the scratch carried between points -/

/-- The scoped buffers of the core that are neither staging buffers of this pipeline nor its scratch: the second
    pipeline's staging buffers, at some contents each. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region is handed besides its windows: the scratch and those buffers at some contents, and the generator
    register at some state. -/
theorem PhiA0_eq (c : Dev nD) :
    (Pipeline.ΦA spec0 c : sProp 𝕄)
      = iprop(((∃ d, owns (c : Thread nD τ) scr fullShare d) ∗ others c) ∗ (∃ r, prngReg c r)) := by
  unfold Pipeline.ΦA others; rw [scopedRest0_eq]; simp only [scr, owns_whole]; try rfl

/-- The invariant before position `n`: before the first point what the region is handed; afterwards the same with the
    scratch NAMED: it holds what the point before left (`accAt`). -/
def PhiS (c : Dev nD) : (n : ℕ) → n ≤ cfg0.N → sProp 𝕄
  | 0, _ => Pipeline.ΦA spec0 c
  | n + 1, hn => iprop((owns (c : Thread nD τ) scr fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scr fullShare (accAt V c n hn) ∗ others c) ∗ (∃ r, prngReg c r)) := rfl

theorem PhiS_pos (c : Dev nD) (n : ℕ) (h : n ≤ cfg0.N) (hz : n ≠ 0) :
    PhiS V c n h = iprop((owns (c : Thread nD τ) scr fullShare (accAt V c (n - 1) (by omega)) ∗ others c) ∗ (∃ r, prngReg c r)) := by
  cases n with
  | zero => exact absurd rfl hz
  | succ n => rfl

/-! ## The pipeline's proof data -/

/-- The proof data of the first pipeline on core `c`: the arrays as the region finds them; after the body at point `t`
    each input's buffer still at its block, and the output block — consulted only where it is written back, at the last
    tile of a batch row — at the accumulator the point leaves; the invariant carries the scratch; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = k0_pay3 (accAt V c t.val t.isLt) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' staging buffers hold their blocks; the tile index decides the case; the invariant
    hands the body the scratch at what the point before left (at anything before the first point, and at a first tile
    whatever it held is overwritten) and takes it back at this point's accumulator; where the output block is not
    written back the body leaves it as it found it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 64 := lt_of_lt_of_eq t.isLt (show cfg0.N = 64 from N_0)
  by_cases h0 : t.val % 8 = 0
  · have h1 : ¬t.val % 8 = 7 := by omega
    have hl : ¬isLast (grid0.coords t) := fun h => h1 ((isLast_iff t).mp h)
    rw [Dat.leavesExact_idle (dat0 V c) 3 t (idle0_3 t hl) (noFlush0_3 t hl), accAt_first V c t h0]
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩⟩
      iapply (run_first c Set.univ (grid0.coords t) _ _ _ _ _ _ _ _ _ _ ((isFirst_iff t).mpr h0) hl
        (blk0 V c 0 t) (blk0 V c 1 t) (blk0 V c 2 t) ((dat0 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_first c Set.univ (grid0.coords t) _ _ _ _ _ _ _ _ _ _ ((isFirst_iff t).mpr h0) hl
        (blk0 V c 0 t) (blk0 V c 1 t) (blk0 V c 2 t) ((dat0 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hf : ¬isFirst (grid0.coords t) := fun h => h0 ((isFirst_iff t).mp h)
    rw [accAt_next V c t h0, PhiS_castSucc V c t, PhiS_pos V c _ _ hz]
    by_cases h1 : t.val % 8 = 7
    · have hl : isLast (grid0.coords t) := (isLast_iff t).mpr h1
      rw [show (dat0 V c).leavesExact 3 t = owns (c : Thread nD τ) (st0_3 t) fullShare ((dat0 V c).after 3 t) from by
        unfold Dat.leavesExact; rw [live0_3 t hl], after0_3, accAt_next V c t h0]
      iintro ⟨⟨⟨HS, Hoth⟩, Hg⟩, Ho, ⟨%d0, H0⟩, ⟨%d1, H1⟩, ⟨%d2, H2⟩, ⟨%d3, H3⟩⟩
      iapply (run_last c Set.univ (grid0.coords t) _ _ _ _ _ _ _ _ _ _ hf hl
        (blk0 V c 0 t) (blk0 V c 1 t) (blk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexact H3
    · have hl : ¬isLast (grid0.coords t) := fun h => h1 ((isLast_iff t).mp h)
      rw [Dat.leavesExact_idle (dat0 V c) 3 t (idle0_3 t hl) (noFlush0_3 t hl)]
      iintro ⟨⟨⟨HS, Hoth⟩, Hg⟩, Ho, ⟨%d0, H0⟩, ⟨%d1, H1⟩, ⟨%d2, H2⟩, ⟨%d3, H3⟩⟩
      iapply (run_mid c Set.univ (grid0.coords t) _ _ _ _ _ _ _ _ _ _ hf hl
        (blk0 V c 0 t) (blk0 V c 1 t) (blk0 V c 2 t) ((dat0 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: what the scratch holds is forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS, Hoth⟩, Hg⟩
  isplitr [Hg]
  · isplitl [HS]; · iexists _; iexact HS
    iexact Hoth
  iexact Hg

end Cert.KernelIdeal.Hand

end
-- ==== Proof.KI.Launch.lean ====
import proofs.«118386_j88364657148296_1_alg».proof.Proof.KI.OutBody
import proofs.«118386_j88364657148296_1_alg».proof.Proof.KI.AccBody
import proofs.«118386_j88364657148296_1_alg».proof.Proof.Gen.KernelIdeal.Regions

/-!
# The two pallas_calls as segments of the program, and the frame

The program is four casts of the weights, the accumulating kernel, the output kernel. Between two of these items the
core holds every buffer that outlives a kernel at a known valuation: the launch contents, then the casts applied, then
the key-value array at what the first kernel's write-backs leave, then the result array at what the second kernel's
leave. Each kernel region is entered from that state and left at the next: its arrays are split out of the held
buffers and put back, the generator register goes into the region's invariant and comes back, nothing is ever owed.
With both regions' records the generated conditional frame gives the frame claim.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- When the accumulating kernel is entered: the launch contents with the four casts applied. -/
abbrev atAcc (c : Dev nD) (b : Ref sig .tc) : Buf (Elt F) ((c : Thread nD τ).loc b) := Gen.V1 m c b

/-- What the accumulating kernel's write-backs leave in the key-value array. -/
def kvOut (c : Dev nD) : Buf (Elt F) ((c : Thread nD τ).loc main_v4) := (dat0 (atAcc m) c).arrAt 3 cfg0.N

/-- The contents the regions leave, as far as the key-value array goes (anything elsewhere). -/
def outsKv : Gen.Outs (F := F) := fun J r c =>
  if h : r = main_v4 then h ▸ kvOut m c else Gen.V1 m c r

/-- When the output kernel is entered: the same with the key-value array at what the first kernel left. -/
abbrev atOut (c : Dev nD) (b : Ref sig .tc) : Buf (Elt F) ((c : Thread nD τ).loc b) := Gen.V2 m (outsKv m) c b

/-- What the output kernel's write-backs leave in the result array. -/
def resOut (c : Dev nD) : Buf (Elt F) ((c : Thread nD τ).loc main_v5) := (dat1 (atOut m) c).arrAt 5 cfg1.N

/-- The contents both regions leave: the key-value array after the first, the result array after the second. -/
def outs : Gen.Outs (F := F) := fun J r c =>
  if h : r = main_v4 then h ▸ kvOut m c else if h' : r = main_v5 then h' ▸ resOut m c else Gen.V1 m c r

theorem outsKv_kv (J : ℕ) (c : Dev nD) : outsKv m J main_v4 c = kvOut m c := by
  unfold outsKv; rw [dif_pos rfl]
theorem outs_kv (J : ℕ) (c : Dev nD) : outs m J main_v4 c = kvOut m c := by
  unfold outs; rw [dif_pos rfl]
theorem outs_res (J : ℕ) (c : Dev nD) : outs m J main_v5 c = resOut m c := by
  unfold outs; rw [dif_neg (by decide), dif_pos rfl]

/-- The valuation after the first region does not depend on what is said of the result array. -/
theorem V2_outs (c : Dev nD) : Gen.V2 m (outs m) c = Gen.V2 m (outsKv m) c := by
  unfold Gen.V2; rw [outs_kv, outsKv_kv]

/-! ## The proof data of both pipelines -/

/-- Each pipeline's proof data at its region's entry contents. -/
def pdats : (p : Fin 2) → (c : Dev nD) → Dat τ (Elt F) Unit ℕ (UR sig nD τ) ℕ (cfgs p) c
  | ⟨0, _⟩ => fun c => dat0 (atAcc m) c
  | ⟨1, _⟩ => fun c => dat1 (atOut m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the held buffers through every item: the generator register at some state, and nothing owed. -/
abbrev rest (c : Dev nD) : sProp 𝕄 := iprop((∃ r, prngReg c r) ∗ ∃ W, owes (c : Thread nD τ) (0 : CellTallies nD τ sig Unit) W)

/-! ## Each region's arrays against the valuations -/

theorem kv_arr (c : Dev nD) (w : Fin cfg0.W) :
    (dat0 (atAcc m) c).arrAt w cfg0.N = (fun b : Ref sig .tc => Gen.V2 m (outs m) c b) (Pipeline.arrRef spec0 w) := by
  rw [V2_outs]
  match w with
  | ⟨0, _⟩ => exact ((dat0 (atAcc m) c).arrAt_in 0 rfl _).trans (by rw [A_eq0]; exact (Gen.V2_of m (outsKv m) c main_arg0 (by decide)).symm)
  | ⟨1, _⟩ => exact ((dat0 (atAcc m) c).arrAt_in 1 rfl _).trans (by rw [A_eq0]; exact (Gen.V2_of m (outsKv m) c main_v1 (by decide)).symm)
  | ⟨2, _⟩ => exact ((dat0 (atAcc m) c).arrAt_in 2 rfl _).trans (by rw [A_eq0]; exact (Gen.V2_of m (outsKv m) c main_v2 (by decide)).symm)
  | ⟨3, _⟩ =>
    show kvOut m c = Function.update (Gen.V1 m c) main_v4 (outsKv m 2 main_v4 c) (Proc.devRef .tc main_v4)
    rw [Function.update_self, outsKv_kv]

theorem kv_rest (c : Dev nD) : ∀ b : Ref sig .tc, b ∉ Finset.univ.image (Pipeline.arrRef spec0) →
    (fun b : Ref sig .tc => Gen.V2 m (outs m) c b) b = (fun b : Ref sig .tc => Gen.V1 m c b) b := by
  intro b hb
  exact Gen.V2_of m (outs m) c b (fun h => hb (Finset.mem_image.mpr ⟨3, Finset.mem_univ _, (List.mem_singleton.mp h).symm⟩))

theorem res_arr (c : Dev nD) (w : Fin cfg1.W) :
    (dat1 (atOut m) c).arrAt w cfg1.N = (fun b : Ref sig .tc => Gen.V3 m (outs m) c b) (Pipeline.arrRef spec1 w) := by
  have hV : ∀ r : Ref sig .tc, r ∉ ([main_v5] : List (Ref sig .tc)) → Gen.V3 m (outs m) c r = atOut m c r := fun r hr => by
    rw [Gen.V3_of m (outs m) c r hr, V2_outs]
  match w with
  | ⟨0, _⟩ => exact ((dat1 (atOut m) c).arrAt_in 0 rfl _).trans (by rw [A_eq1]; exact (hV main_arg0 (by decide)).symm)
  | ⟨1, _⟩ => exact ((dat1 (atOut m) c).arrAt_in 1 rfl _).trans (by rw [A_eq1]; exact (hV main_v0 (by decide)).symm)
  | ⟨2, _⟩ => exact ((dat1 (atOut m) c).arrAt_in 2 rfl _).trans (by rw [A_eq1]; exact (hV main_v3 (by decide)).symm)
  | ⟨3, _⟩ => exact ((dat1 (atOut m) c).arrAt_in 3 rfl _).trans (by rw [A_eq1]; exact (hV main_arg5 (by decide)).symm)
  | ⟨4, _⟩ => exact ((dat1 (atOut m) c).arrAt_in 4 rfl _).trans (by rw [A_eq1]; exact (hV main_v4 (by decide)).symm)
  | ⟨5, _⟩ =>
    show resOut m c = Function.update (Gen.V2 m (outs m) c) main_v5 (outs m 3 main_v5 c) (Proc.devRef .tc main_v5)
    rw [Function.update_self, outs_res]

theorem res_rest (c : Dev nD) : ∀ b : Ref sig .tc, b ∉ Finset.univ.image (Pipeline.arrRef spec1) →
    (fun b : Ref sig .tc => Gen.V3 m (outs m) c b) b = (fun b : Ref sig .tc => Gen.V2 m (outs m) c b) b := by
  intro b hb
  exact Gen.V3_of m (outs m) c b (fun h => hb (Finset.mem_image.mpr ⟨5, Finset.mem_univ _, (List.mem_singleton.mp h).symm⟩))

/-! ## The regions as segments -/

set_option backward.isDefEq.respectTransparency.types false in
/-- The accumulating kernel's region: entered from the held buffers after the casts, left at the same with the key-value
    array at what its write-backs leave. The scratch and the other scoped buffers go into the invariant with the
    generator register and come back; the kernel has no semaphore of its own; nothing is owed. -/
def regAcc : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atAcc m) c).loose
  hwaits := Pipeline.hwaits_of_owed_zero _ _ _ _ L lv 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (atAcc m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atAcc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (atAcc m) c
    rw [show (pdats m 0 c).Φ 0 = (dat0 (atAcc m) c).Φ 0 from rfl]
    unfold Pipeline.ΦA at h
    iintro ⟨Hp, -, Hr⟩
    iapply h
    isplitl [Hr]; · iexact Hr
    iexact Hp
  hout c := by
    rw [Pipeline.ownSems0_none]
    refine (hout0 (atAcc m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atAcc m c) (fun b : Ref sig .tc => Gen.V2 m (outs m) c b) ((pdats m 0 c).arrAt · cfg0.N) (kv_arr m c) (kv_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output kernel's region: entered from the held buffers with the key-value array as the first kernel left it, left
    at the same with the result array at what its write-backs leave. It keeps no state: the scoped buffers no window
    stages and the generator register pass through its invariant untouched. -/
def regOut : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atOut m) c).loose
  hwaits := Pipeline.hwaits_of_owed_zero _ _ _ _ L lv 1 fun _ _ => rfl
  pre c := iprop(StableHlo.held (c : Thread nD τ) (Pipeline.ucRefs τ sig) (Gen.V2 m (outs m) c) ∗ rest c)
  post c := iprop(StableHlo.held (c : Thread nD τ) (Pipeline.ucRefs τ sig) (Gen.V3 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (atOut m c)
  hentry c := by
    rw [Pipeline.ownSems0_none, V2_outs]
    have hsplit := Pipeline.arrays_of_unscopedBufs (p := 1) (pcfgs (F := F)) adm (pdats m) launch1.win launch1.arr_whole c
      ((pdats m 1 c).share_full fun _ => rfl) (atOut m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b : Ref sig .tc => Gen.V2 m (outs m) c b) (fun b : Ref sig .tc => Gen.V3 m (outs m) c b) ((pdats m 1 c).arrAt · cfg1.N) (res_arr m c) (res_rest m c)
    rw [Pipeline.unscopedBufs_held] at hjoin
    rw [show (Pipeline.unscopedRest (Ix := Unit) (Name := ℕ) (U := UR sig nD τ) (Lvl := ℕ) spec1 c (atOut m c) : sProp 𝕄)
        = Pipeline.unscopedRest spec1 c (fun b : Ref sig .tc => Gen.V2 m (outs m) c b) from by rw [V2_outs]]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- The frame claim at any float instance: the generated conditional frame, from the two regions' records; what rides
    beside the held buffers is made at launch from what each core is dealt, and ends owing nothing. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := regAcc m) (hpre0 := fun _ => .rfl) (hpost0 := fun _ => .rfl)
    (R1 := regOut m) (hpre1 := fun _ => .rfl) (hpost1 := fun _ => .rfl)

end Cert.KernelIdeal.Hand

end
-- ==== Proof.KI.RunNamed.lean ====
import proofs.«118386_j88364657148296_1_alg».proof.Proof.Gen.KernelIdeal.Regions

/-!
# The program's run with the result array named

The frame claim only says the arguments end as launched. The value claim also needs WHAT the result array holds at the
end: the valuation after the last item has it at what the second kernel region leaves, and the last thread state is
read against the final memory at that buffer too.
-/

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ) (outs : Outs (F := F))

/-- After the last item the result array holds what the second region leaves in it. -/
theorem V3_res (c : Dev nD) : V3 m outs c main_v5 = outs 3 main_v5 c := by
  show Function.update (V2 m outs c) main_v5 (outs 3 main_v5 c) (Proc.devRef .tc main_v5) = _
  rw [Function.update_self]

set_option backward.isDefEq.respectTransparency.types false in
/-- The run with the result array NAMED. For any rest states the launch makes on every core at once and that end owing
    nothing, any contents the regions leave and any proof data: given, per region, a segment record entered from the
    thread state before it and left at the one after it, every weakly fair execution of the program from memory `m` with
    zero counters terminates, and every final memory holds the result array at what the second region is said to leave
    and each argument as launched. -/
theorem run_named {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v5) = outs 3 main_v5 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨.rfl, hpre0 c, (hpost0 c).trans (hpre1 c), (hpost1 c).trans (sep_mono .rfl (hE2 c))⟩)
    (hinit := ?_) (QY := fun c s => s.mem ((c.tc : Thread nD τ).loc main_v5) = outs 3 main_v5 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨(h (Proc.devRef .tc main_v5) (Finset.mem_filter.mpr ⟨StableHlo.devRef_mem_tcRefs main_v5, by decide⟩)).trans (V3_res m outs c),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c),
        (h (Proc.devRef .tc main_arg4) (Finset.mem_filter.mpr ⟨StableHlo.devRef_mem_tcRefs main_arg4, by decide⟩)).trans (V3_main_arg4 m outs c),
        (h (Proc.devRef .tc main_arg5) (Finset.mem_filter.mpr ⟨StableHlo.devRef_mem_tcRefs main_arg5, by decide⟩)).trans (V3_main_arg5 m outs c)⟩
    · iexact HSI

end Cert.KernelIdeal.Hand

end
-- ==== Proof.KI.RunValue.lean ====
import proofs.«118386_j88364657148296_1_alg».proof.Proof.KI.Launch
import proofs.«118386_j88364657148296_1_alg».proof.Proof.KI.RunNamed

/-!
# The idealized kernel program's run, with the result array at what the second kernel leaves
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Every weakly fair execution terminates with the result array at what the output kernel's write-backs leave
    (`resOut`) and the arguments as launched: the same launch as the frame's, read at one more buffer. -/
theorem run_value (ρ : Dev nD → PrngReg) : θ_run defs (onTc (τ := τ) (main (F := F))) ⟨m, fun _ => 0, ρ⟩ (fun r => ∀ c : Dev nD,
      r.2.mem ((c.tc : Thread nD τ).loc main_v5) = resOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (outs_res m 3 c), (h c).2⟩)
  (run_named m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := regAcc m) (hpre0 := fun _ => .rfl) (hpost0 := fun _ => .rfl)
    (R1 := regOut m) (hpre1 := fun _ => .rfl) (hpost1 := fun _ => .rfl))

end Cert.KernelIdeal.Hand

end
-- ==== Proof.Spec.lean ====
import Idealize.ShloMosaic.PureOps.Ideal
import Idealize.ShloMosaic.Lib.ValueIdx

/-!
# What both programs compute

Linear attention without a softmax, for one batch row `b`: keys, values and queries are the rows of `x` against the rows
of three weight matrices; `kv = kᵀ v` sums over ALL 4096 sequence positions; the output row is `(q · kv) · Wpᵀ + bias + x`.
Everything is an extended real (the exact arithmetic both programs are read at), index by index, over literal shapes.
-/

noncomputable section

namespace Cert.Spec

open Idealize.ShloMosaic Idealize.ShloMosaic.ValueIdx

/-- The shapes: the activations `[8, 4096, 1024]`, a weight matrix `[1024, 1024]`, the bias `[1024]`, and the per-batch
    key-value matrices `[8, 1024, 1024]`. -/
abbrev SX : Shape := ⟨3, ![8, 4096, 1024]⟩
abbrev SW : Shape := ⟨2, ![1024, 1024]⟩
abbrev SB : Shape := ⟨1, ![1024]⟩
abbrev SKV : Shape := ⟨3, ![8, 1024, 1024]⟩

/-- A linear layer without bias: row `(b, s)` of `x` against row `e` of `w` (`y = x wᵀ`). -/
def lin (x : SX.Idx → EReal) (w : SW.Idx → EReal) (b : Fin 8) (s : Fin 4096) (e : Fin 1024) : EReal :=
  ∑ d : Fin 1024, x (ix3 b s d) * w (ix2 e d)

/-- `kv[b, e, f] = ∑ₛ k[b, s, e] · v[b, s, f]`, over all 4096 positions. -/
def kvAt (x : SX.Idx → EReal) (wk wv : SW.Idx → EReal) (b : Fin 8) (e f : Fin 1024) : EReal :=
  ∑ s : Fin 4096, lin x wk b s e * lin x wv b s f

/-- The same as an array. -/
def kvArr (x : SX.Idx → EReal) (wk wv : SW.Idx → EReal) : SKV.Idx → EReal :=
  fun j => kvAt x wk wv (j 0) (j 1) (j 2)

/-- One output entry from `x`, the query and projection weights, the bias and a key-value array:
    `∑_f (∑_e q[b, s, e] · kv[b, e, f]) · wp[g, f] + bp[g] + x[b, s, g]`. -/
def outAt (x : SX.Idx → EReal) (wq wp : SW.Idx → EReal) (bp : SB.Idx → EReal) (kv : SKV.Idx → EReal)
    (b : Fin 8) (s : Fin 4096) (g : Fin 1024) : EReal :=
  (∑ f : Fin 1024, (∑ e : Fin 1024, lin x wq b s e * kv (ix3 b e f)) * wp (ix2 g f)) + bp (ix1 g) + x (ix3 b s g)

/-- The same as an array. -/
def outArr (x : SX.Idx → EReal) (wq wp : SW.Idx → EReal) (bp : SB.Idx → EReal) (kv : SKV.Idx → EReal) : SX.Idx → EReal :=
  fun j => outAt x wq wp bp kv (j 0) (j 1) (j 2)

/-- The whole result from the six arguments. -/
def result (x : SX.Idx → EReal) (wq wk wv wp : SW.Idx → EReal) (bp : SB.Idx → EReal) : SX.Idx → EReal :=
  outArr x wq wp bp (kvArr x wk wv)

end Cert.Spec

end
-- ==== Proof.KI.KvValue.lean ====
import proofs.«118386_j88364657148296_1_alg».proof.Proof.KI.AccBody
import proofs.«118386_j88364657148296_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The key-value array after the accumulating kernel

At grid point `t` (batch row `t / 8`, tile `t % 8`) one step adds to the accumulator, entry by entry, the products
`k[u, e] · v[u, f]` of the tile's 512 sequence positions `u`, where `k[u, e] = ∑ d, x[b, u, d] · wk[e, d]` and
`v[u, f] = ∑ d, x[b, u, d] · wv[f, d]`. A first tile starts from the zero matrix, so after tile `s` of batch row `b`
the accumulator holds the sum over the first `512 (s + 1)` positions; after the last tile that is the sum over all
4096, which is what is copied out to block `b` of the result. Only commutativity and associativity of `+` on the
extended reals are used: consecutive ranges of positions are joined end to end.
-/

set_option maxRecDepth 16384

noncomputable section

namespace Cert.KernelIdeal.KvValue

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

/-! ## The two matrix products of one step, read at an index -/

/-- Rows against rows: the left operand is read at the output's row, -/
theorem lhs_rows_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- and at the summation position on its second axis; -/
theorem lhs_rows_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- the right operand at the output's column, as its ROW, -/
theorem rhs_rows_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- and at the summation position on its second axis. -/
theorem rhs_rows_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- A product of rows against rows into zero: entry `(r, e)` is `∑ d, l[r, d] · w[e, d]`. -/
theorem rows_apply (l : FVec Ideal S512x1024 .bf16) (w : FVec Ideal S1024x1024 .bf16) (r : Fin 512) (e : Fin 1024) :
    matmul dot_S512x1024_S1024x1024_S512x1024_1_1_0_0_n_n none l w (constant S512x1024 .f32 0x00000000#32) (ix2 r e)
      = ∑ d : Fin 1024, l (ix2 r d) * w (ix2 e d) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r e) ((contrEquiv1 dot_S512x1024_S1024x1024_S512x1024_1_1_0_0_n_n 1024 rfl rfl).symm k) = ix2 r k := funext fun a => Fin.ext (by
    match a with
    | ⟨0, _⟩ => exact lhs_rows_0 _ _
    | ⟨1, _⟩ => exact (lhs_rows_1 _ _).trans hk)
  have er : dot_S512x1024_S1024x1024_S512x1024_1_1_0_0_n_n.rhsIdx (ix2 r e) ((contrEquiv1 dot_S512x1024_S1024x1024_S512x1024_1_1_0_0_n_n 1024 rfl rfl).symm k) = ix2 e k := funext fun a => Fin.ext (by
    match a with
    | ⟨0, _⟩ => exact rhs_rows_0 _ _
    | ⟨1, _⟩ => exact (rhs_rows_1 _ _).trans hk)
  rw [el, er]

/-- Columns against columns: the left operand is read at the summation position on its first axis, -/
theorem lhs_cols_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
/-- and at the output's row on its second; -/
theorem lhs_cols_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
/-- the right operand at the summation position on its first axis, -/
theorem rhs_cols_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
/-- and at the output's column on its second. -/
theorem rhs_cols_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- A product of columns against columns into zero: entry `(e, f)` is `∑ r, k[r, e] · v[r, f]`. -/
theorem cols_apply (k v : FVec Ideal S512x1024 .bf16) (e f : Fin 1024) :
    matmul dot_S512x1024_S512x1024_S1024x1024_0_0_1_1_n_n none k v (constant S1024x1024 .f32 0x00000000#32) (ix2 e f)
      = ∑ r : Fin 512, k (ix2 r e) * v (ix2 r f) := by
  simp only [matmul]
  rw [Ideal.matmul_constant_zero_apply, ← Equiv.sum_comp (contrEquiv1 dot_S512x1024_S512x1024_S1024x1024_0_0_1_1_n_n 512 rfl rfl).symm]
  refine Finset.sum_congr rfl fun r _ => ?_
  have hk := contrEquiv1_symm_val dot_S512x1024_S512x1024_S1024x1024_0_0_1_1_n_n 512 rfl rfl r
  have el : dot_S512x1024_S512x1024_S1024x1024_0_0_1_1_n_n.lhsIdx (ix2 e f) ((contrEquiv1 dot_S512x1024_S512x1024_S1024x1024_0_0_1_1_n_n 512 rfl rfl).symm r) = ix2 r e := funext fun a => Fin.ext (by
    match a with
    | ⟨0, _⟩ => exact (lhs_cols_0 _ _).trans hk
    | ⟨1, _⟩ => exact lhs_cols_1 _ _)
  have er : dot_S512x1024_S512x1024_S1024x1024_0_0_1_1_n_n.rhsIdx (ix2 e f) ((contrEquiv1 dot_S512x1024_S512x1024_S1024x1024_0_0_1_1_n_n 512 rfl rfl).symm r) = ix2 r f := funext fun a => Fin.ext (by
    match a with
    | ⟨0, _⟩ => exact (rhs_cols_0 _ _).trans hk
    | ⟨1, _⟩ => exact rhs_cols_1 _ _)
  rw [el, er]

/-! ## One step of the accumulation, read at an index -/

/-- The tile is read from its first entry on every axis. -/
theorem hzTile : (![0, 0, 0] : Fin S1x512x1024.rank → Nat) = fun _ => 0 := by funext a; fin_cases a <;> rfl

/-- The tile seen as a matrix: row `r`, column `d` is entry `(0, r, d)`. -/
theorem tile_apply (x0 : Vec Ideal S1x512x1024 .f32) (r : Fin 512) (d : Fin 1024) :
    shapeCast S512x1024 x0 shapeCasts_S1x512x1024_S512x1024 (ix2 r d) = x0 (ix3 0 r d) := by
  refine shapeCast_apply x0 _ (ix2 r d) (ix3 0 r d) ?_
  rw [Shape.rowMajor_val_three, Shape.rowMajor_val_two]
  show ((0 : Fin 1).val * 512 + r.val) * 1024 + d.val = r.val * 1024 + d.val
  simp

/-- One step at entry `(e, f)`: the accumulator there plus, over the tile's 512 rows, the row's key at `e` times its
    value at `f` (rounding to bf16 is the identity at exact arithmetic; the products start from zero). -/
theorem accStep_apply (x0 : Vec Ideal S1x512x1024 .f32) (x1 x2 : Vec Ideal S1024x1024 .bf16) (a : Vec Ideal S1024x1024 .f32) (e f : Fin 1024) :
    accStep x0 x1 x2 a (ix2 e f)
      = a (ix2 e f) + ∑ r : Fin 512, (∑ d : Fin 1024, x0 (ix3 0 r d) * x1 (ix2 e d)) * (∑ d : Fin 1024, x0 (ix3 0 r d) * x2 (ix2 f d)) := by
  unfold accStep
  rw [View.ld_unit_zero hzTile, View.ld_unit_zero hzMat, View.ld_unit_zero hzMat]
  unfold k0_pay2
  rw [shapeCast_self, addf_apply, cols_apply]
  refine congrArg (a (ix2 e f) + ·) (Finset.sum_congr rfl fun r _ => ?_)
  rw [truncf_apply, truncf_apply, rows_apply, rows_apply, shapeCast_self, shapeCast_self]
  refine congrArg₂ (· * ·) (Finset.sum_congr rfl fun d _ => ?_) (Finset.sum_congr rfl fun d _ => ?_)
  · rw [truncf_apply, tile_apply]
  · rw [truncf_apply, tile_apply]

/-- The zero matrix the first tile of a batch row starts from. -/
theorem zero_apply (e f : Fin 1024) : (k0_pay1 (F := Ideal)) (ix2 e f) = 0 := by
  unfold k0_pay1
  rw [shapeCast_self, broadcast_apply]
  exact Ideal.ofBits_zero_f32

/-! ## The blocks the windows stage, read at an index -/

variable (V : (c : Dev nD) → (b : Ref sig .tc) → Buf (Elt Ideal) ((c : Thread nD τ).loc b)) (c : Dev nD)

/-- The windows' index maps over the grid: point `t` is batch row `t / 8`, tile `t % 8`; the weights are whole. -/
theorem idx_facts : ∀ t : Fin cfg0.N, win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-- The tile of `x` at point `t`: row `r` of the tile is position `512 (t % 8) + r` of batch row `t / 8`. -/
theorem tile_blk_apply (t : Fin cfg0.N) (r : Fin 512) (d : Fin 1024) (b : Fin 8) (u : Fin 4096)
    (hb : b.val = t.val / 8) (hu : u.val = 512 * (t.val % 8) + r.val) :
    (blk0 V c 0 t : Vec Ideal S1x512x1024 .f32) (ix3 0 r d) = (V c main_arg0 : S8x4096x1024.Idx → EReal) (ix3 b u d) := by
  unfold blk0
  rw [View.read_apply]
  show V c main_arg0 _ = V c main_arg0 _
  congr 1
  funext a; apply Fin.ext
  obtain ⟨e0, e1, e2, -⟩ := idx_facts t
  match a with
  | ⟨0, _⟩ => show win0_0.index t (0 : Fin 3) * 1 + 1 * (0 : Fin 1).val = b.val; rw [e0, hb]; simp
  | ⟨1, _⟩ => show win0_0.index t (1 : Fin 3) * 512 + 1 * r.val = u.val; rw [e1, hu]; omega
  | ⟨2, _⟩ => show win0_0.index t (2 : Fin 3) * 1024 + 1 * d.val = d.val; rw [e2]; omega

/-- The key weights at every point: the whole array. -/
theorem wk_blk_apply (t : Fin cfg0.N) (e d : Fin 1024) :
    (blk0 V c 1 t : Vec Ideal S1024x1024 .bf16) (ix2 e d) = (V c main_v1 : S1024x1024.Idx → EReal) (ix2 e d) := by
  unfold blk0
  rw [View.read_apply]
  show V c main_v1 _ = V c main_v1 _
  congr 1
  funext a; apply Fin.ext
  obtain ⟨-, -, -, e0, e1, -⟩ := idx_facts t
  match a with
  | ⟨0, _⟩ => show win0_1.index t (0 : Fin 2) * 1024 + 1 * e.val = e.val; rw [e0]; omega
  | ⟨1, _⟩ => show win0_1.index t (1 : Fin 2) * 1024 + 1 * d.val = d.val; rw [e1]; omega

/-- The value weights at every point: the whole array. -/
theorem wv_blk_apply (t : Fin cfg0.N) (e d : Fin 1024) :
    (blk0 V c 2 t : Vec Ideal S1024x1024 .bf16) (ix2 e d) = (V c main_v2 : S1024x1024.Idx → EReal) (ix2 e d) := by
  unfold blk0
  rw [View.read_apply]
  show V c main_v2 _ = V c main_v2 _
  congr 1
  funext a; apply Fin.ext
  obtain ⟨-, -, -, -, -, e0, e1, -⟩ := idx_facts t
  match a with
  | ⟨0, _⟩ => show win0_2.index t (0 : Fin 2) * 1024 + 1 * e.val = e.val; rw [e0]; omega
  | ⟨1, _⟩ => show win0_2.index t (1 : Fin 2) * 1024 + 1 * d.val = d.val; rw [e1]; omega

/-! ## What the scratch holds after each point -/

/-- Position `u` of batch row `b` in entry `(e, f)`: its key at `e` times its value at `f` (zero past the sequence's end,
    so that partial sums run over plain ranges of naturals). -/
def term (x : Cert.Spec.SX.Idx → EReal) (wk wv : Cert.Spec.SW.Idx → EReal) (b : Fin 8) (e f : Fin 1024) (u : ℕ) : EReal :=
  if h : u < 4096 then Cert.Spec.lin x wk b ⟨u, h⟩ e * Cert.Spec.lin x wv b ⟨u, h⟩ f else 0

/-- The whole sum over the sequence is the specification's entry. -/
theorem sum_term (x : Cert.Spec.SX.Idx → EReal) (wk wv : Cert.Spec.SW.Idx → EReal) (b : Fin 8) (e f : Fin 1024) :
    ∑ u ∈ Finset.range 4096, term x wk wv b e f u = Cert.Spec.kvAt x wk wv b e f := by
  rw [← Fin.sum_univ_eq_sum_range (fun u => term x wk wv b e f u) 4096]
  unfold Cert.Spec.kvAt
  refine Finset.sum_congr rfl fun s _ => ?_
  unfold term
  rw [dif_pos s.isLt]

/-- One step at point `t` adds the 512 positions of tile `t % 8` of batch row `t / 8`. -/
theorem step_apply (t : Fin cfg0.N) (b : Fin 8) (hb : b.val = t.val / 8) (a : Vec Ideal S1024x1024 .f32) (e f : Fin 1024) :
    accStep (blk0 V c 0 t) (blk0 V c 1 t) (blk0 V c 2 t) a (ix2 e f)
      = a (ix2 e f) + ∑ r ∈ Finset.range 512, term (V c main_arg0) (V c main_v1) (V c main_v2) b e f (512 * (t.val % 8) + r) := by
  refine (accStep_apply (blk0 V c 0 t) (blk0 V c 1 t) (blk0 V c 2 t) a e f).trans ?_
  refine congrArg (a (ix2 e f) + ·) ?_
  rw [← Fin.sum_univ_eq_sum_range (fun r => term (V c main_arg0) (V c main_v1) (V c main_v2) b e f (512 * (t.val % 8) + r)) 512]
  refine Finset.sum_congr rfl fun r _ => ?_
  have hN : t.val < 64 := lt_of_lt_of_eq t.isLt (show cfg0.N = 64 from N_0)
  have hu : 512 * (t.val % 8) + r.val < 4096 := by have := r.isLt; omega
  unfold term
  rw [dif_pos hu]
  unfold Cert.Spec.lin
  refine congrArg₂ (· * ·) (Finset.sum_congr rfl fun d _ => ?_) (Finset.sum_congr rfl fun d _ => ?_)
  · rw [tile_blk_apply V c t r d b ⟨_, hu⟩ hb rfl, wk_blk_apply V c t e d]
  · rw [tile_blk_apply V c t r d b ⟨_, hu⟩ hb rfl, wv_blk_apply V c t f d]

/-- After point `n` (batch row `n / 8`, tile `n % 8`) the scratch holds the sum over the first `512 (n % 8 + 1)` positions
    of that batch row: by induction on the point; a first tile starts from zero, any other adds to what the point
    before left, and the two ranges of positions sit end to end. -/
theorem accAt_apply : ∀ (n : ℕ) (hn : n < cfg0.N) (b : Fin 8) (hb : b.val = n / 8) (e f : Fin 1024),
    accAt V c n hn (ix2 e f)
      = ∑ u ∈ Finset.range (512 * (n % 8 + 1)), term (V c main_arg0) (V c main_v1) (V c main_v2) b e f u
  | 0, hn, b, hb, e, f => by
    show accStep (blk0 V c 0 ⟨0, hn⟩) (blk0 V c 1 ⟨0, hn⟩) (blk0 V c 2 ⟨0, hn⟩) (k0_pay1 (F := Ideal)) (ix2 e f) = _
    rw [step_apply V c ⟨0, hn⟩ b hb (k0_pay1 (F := Ideal)) e f, zero_apply, zero_add]
    refine Finset.sum_congr rfl fun r _ => ?_
    show term _ _ _ b e f (512 * (0 % 8) + r) = _
    rw [show 512 * (0 % 8) + r = r from by omega]
  | n + 1, hn, b, hb, e, f => by
    by_cases h : (n + 1) % 8 = 0
    · rw [show accAt V c (n + 1) hn = accStep (blk0 V c 0 ⟨n + 1, hn⟩) (blk0 V c 1 ⟨n + 1, hn⟩) (blk0 V c 2 ⟨n + 1, hn⟩) (k0_pay1 (F := Ideal)) from if_pos h,
        step_apply V c ⟨n + 1, hn⟩ b hb (k0_pay1 (F := Ideal)) e f, zero_apply, zero_add]
      show ∑ r ∈ Finset.range 512, term _ _ _ b e f (512 * ((n + 1) % 8) + r) = _
      rw [h]
      refine Finset.sum_congr rfl fun r _ => ?_
      rw [show 512 * 0 + r = r from by omega]
    · rw [show accAt V c (n + 1) hn = accStep (blk0 V c 0 ⟨n + 1, hn⟩) (blk0 V c 1 ⟨n + 1, hn⟩) (blk0 V c 2 ⟨n + 1, hn⟩) (accAt V c n (Nat.lt_of_succ_lt hn)) from if_neg h,
        step_apply V c ⟨n + 1, hn⟩ b hb (accAt V c n (Nat.lt_of_succ_lt hn)) e f,
        accAt_apply n (Nat.lt_of_succ_lt hn) b (by rw [hb]; omega) e f]
      show _ + ∑ r ∈ Finset.range 512, term _ _ _ b e f (512 * ((n + 1) % 8) + r) = _
      rw [show (n + 1) % 8 = n % 8 + 1 from by omega, show 512 * (n % 8 + 1 + 1) = 512 * (n % 8 + 1) + 512 from by omega,
        Finset.sum_range_add]

/-! ## From the blocks to the array -/

/-- The output block is the accumulator with a unit axis in front. -/
theorem pay3_apply (a : Vec Ideal S1024x1024 .f32) (p : Fin 1) (q r : Fin 1024) : k0_pay3 a (ix3 p q r) = a (ix2 q r) := by
  unfold k0_pay3
  refine shapeCast_apply a _ (ix3 p q r) (ix2 q r) ?_
  rw [Shape.rowMajor_val_three, Shape.rowMajor_val_two]
  show q.val * 1024 + r.val = (p.val * 1024 + q.val) * 1024 + r.val
  have := p.isLt
  omega

/-- What the last tile of a batch row writes back is that batch row's matrix of the specification: its block of the
    array of all sums over the 4096 positions. -/
theorem flushed_eq (t : Fin cfg0.N) (hf : (cfg0.win 3).flush t = true) :
    (dat0 (F := Ideal) V c).flushed 3 t
      = ((cfg0.win 3).blk t).view.read (Elt Ideal) (Cert.Spec.kvArr (V c main_arg0) (V c main_v1) (V c main_v2)) := by
  have h7 : t.val % 8 = 7 := (flush0_3 t).mp hf
  have hN : t.val < 64 := lt_of_lt_of_eq t.isLt (show cfg0.N = 64 from N_0)
  show (cfg0.win 3).cut (grid0.coords t) ((dat0 (F := Ideal) V c).after 3 t) = _
  rw [after0_3]
  funext j
  obtain ⟨p, q, r, rfl⟩ : ∃ (p : Fin 1) (q : Fin 1024) (r : Fin 1024), j = ix3 p q r := ⟨j 0, j 1, j 2, eq_ix3 j⟩
  rw [View.read_apply]
  show k0_pay3 (accAt V c t.val t.isLt) (ix3 p q r) = Cert.Spec.kvArr (V c main_arg0) (V c main_v1) (V c main_v2) (((cfg0.win 3).blk t).view.emb (ix3 p q r))
  have hb : t.val / 8 < 8 := by omega
  have hemb : ((cfg0.win 3).blk t).view.emb (ix3 p q r) = (ix3 (⟨t.val / 8, hb⟩ : Fin 8) q r : S8x1024x1024.Idx) := by
    funext a; apply Fin.ext
    obtain ⟨-, -, -, -, -, -, -, e0, e1, e2⟩ := idx_facts t
    match a with
    | ⟨0, _⟩ => show win0_3.index t (0 : Fin 3) * 1 + 1 * p.val = t.val / 8; rw [e0]; have := p.isLt; omega
    | ⟨1, _⟩ => show win0_3.index t (1 : Fin 3) * 1024 + 1 * q.val = q.val; rw [e1]; omega
    | ⟨2, _⟩ => show win0_3.index t (2 : Fin 3) * 1024 + 1 * r.val = r.val; rw [e2]; omega
  rw [hemb, pay3_apply, accAt_apply V c t.val t.isLt ⟨t.val / 8, hb⟩ rfl q r, h7]
  exact sum_term _ _ _ _ q r

/-- The eight blocks written back, one per batch row, cover the array. -/
theorem covered (i : S8x1024x1024.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 1024 := (i 2).isLt
  have hN : cfg0.N = 64 := N_0
  have ht : 8 * (i 0).val + 7 < cfg0.N := by rw [hN]; omega
  refine ⟨⟨8 * (i 0).val + 7, ht⟩, (flush0_3 _).mpr (by show (8 * (i 0).val + 7) % 8 = 7; omega), ?_⟩
  show i ∈ ((View.whole main_v4).slice (win0_3.rect ⟨8 * (i 0).val + 7, ht⟩)).set
  rw [View.set_slice_whole, Rect.mem_set_unit]
  intro a
  obtain ⟨-, -, -, -, -, -, -, e0, e1, e2⟩ := idx_facts ⟨8 * (i 0).val + 7, ht⟩
  have e0' : win0_3.index ⟨8 * (i 0).val + 7, ht⟩ (0 : Fin 3) = (i 0).val := by rw [e0]; show (8 * (i 0).val + 7) / 8 = _; omega
  match a with
  | ⟨0, _⟩ => show win0_3.index ⟨8 * (i 0).val + 7, ht⟩ (0 : Fin 3) * 1 ≤ (i 0).val ∧ (i 0).val < win0_3.index ⟨8 * (i 0).val + 7, ht⟩ (0 : Fin 3) * 1 + 1; rw [e0']; omega
  | ⟨1, _⟩ => show win0_3.index ⟨8 * (i 0).val + 7, ht⟩ (1 : Fin 3) * 1024 ≤ (i 1).val ∧ (i 1).val < win0_3.index ⟨8 * (i 0).val + 7, ht⟩ (1 : Fin 3) * 1024 + 1024; rw [e1]; omega
  | ⟨2, _⟩ => show win0_3.index ⟨8 * (i 0).val + 7, ht⟩ (2 : Fin 3) * 1024 ≤ (i 2).val ∧ (i 2).val < win0_3.index ⟨8 * (i 0).val + 7, ht⟩ (2 : Fin 3) * 1024 + 1024; rw [e2]; omega

/-- After the first pallas_call the array `kv` holds, at exact arithmetic, `∑ₛ k[b, s, e] · v[b, s, f]` over all 4096
    positions, `k` and `v` the rows of `x` against the rows of the two weight arrays the region is entered with. -/
theorem kv_final (V : (c : Dev nD) → (b : Ref sig .tc) → Buf (Elt Ideal) ((c : Thread nD τ).loc b)) (c : Dev nD) :
    (dat0 (F := Ideal) V c).arrAt 3 cfg0.N = Cert.Spec.kvArr (V c main_arg0) (V c main_v1) (V c main_v2) :=
  (dat0 (F := Ideal) V c).arrAt_eq_of_cover 3 (Cert.Spec.kvArr (V c main_arg0) (V c main_v1) (V c main_v2))
    (fun t hf => flushed_eq V c t hf) (covered)

end Cert.KernelIdeal.KvValue

end
-- ==== Proof.KI.OutValue.lean ====
import proofs.«118386_j88364657148296_1_alg».proof.Proof.KI.OutBody
import proofs.«118386_j88364657148296_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The output kernel's result array, at exact arithmetic

The second kernel's grid is 8 × 8: point `t` is batch row `b = t / 8` and row tile `t % 8`. At that point the body reads
the 512 rows `x[b, 512 (t % 8) .. 512 (t % 8) + 511, :]`, the query and projection weight matrices, the bias and the matrix
`kv[b]`, and stores the tile
`out[r, g] = ∑_f (∑_e (∑_d x[r, d] · wq[e, d]) · kv[e, f]) · wp[g, f] + bias[g] + x[r, g]`:
three matrix products into zero accumulators (a change of float format is the identity on exact values), a row broadcast
and two additions. Read through the windows' index maps that tile is the block `(t / 8, t % 8, 0)` of ONE function of the
five arrays, `Cert.Spec.outArr`; every point writes its tile back and the 64 tiles cover the `[8, 4096, 1024]` array, so the
array ends holding that function.
-/

set_option maxRecDepth 16384

noncomputable section

namespace Cert.KernelIdeal.OutValue

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

/-! ## The two matrix products of the body, read at an index -/

/-- The product that contracts axis 1 of both operands (`y = l rᵀ`): its operand indices, axis by axis. -/
theorem lhsT_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhsT_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhsT_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhsT_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Into a zero accumulator it is the plain sum over the shared second coordinate. -/
theorem matmulT_apply {φ₁ φ₂ : FTy} (l : FVec Ideal S512x1024 φ₁) (r : FVec Ideal S1024x1024 φ₂) (p : Fin 512) (g : Fin 1024) :
    matmul dot_S512x1024_S1024x1024_S512x1024_1_1_0_0_n_n none l r (constant (F := Ideal) S512x1024 .f32 0x00000000#32) (ix2 p g)
      = ∑ k : Fin 1024, l (ix2 p k) * r (ix2 g k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p g) ((ValueIdx.contrEquiv1 dot_S512x1024_S1024x1024_S512x1024_1_1_0_0_n_n 1024 rfl rfl).symm k) = ix2 p k := funext fun a => Fin.ext (by
    match a with
    | ⟨0, _⟩ => exact lhsT_0 _ _
    | ⟨1, _⟩ => exact (lhsT_1 _ _).trans hk)
  have er : dot_S512x1024_S1024x1024_S512x1024_1_1_0_0_n_n.rhsIdx (ix2 p g) ((ValueIdx.contrEquiv1 dot_S512x1024_S1024x1024_S512x1024_1_1_0_0_n_n 1024 rfl rfl).symm k) = ix2 g k := funext fun a => Fin.ext (by
    match a with
    | ⟨0, _⟩ => exact rhsT_0 _ _
    | ⟨1, _⟩ => exact (rhsT_1 _ _).trans hk)
  rw [el, er]

/-- The product that contracts axis 1 of the left operand with axis 0 of the right (`y = l r`): its operand indices. -/
theorem lhsN_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsN_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsN_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsN_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Into a zero accumulator it is the plain sum over the left's column and the right's row. -/
theorem matmulN_apply {φ₁ φ₂ : FTy} (l : FVec Ideal S512x1024 φ₁) (r : FVec Ideal S1024x1024 φ₂) (p : Fin 512) (g : Fin 1024) :
    matmul dot_S512x1024_S1024x1024_S512x1024_1_0_0_1_n_n none l r (constant (F := Ideal) S512x1024 .f32 0x00000000#32) (ix2 p g)
      = ∑ k : Fin 1024, l (ix2 p k) * r (ix2 k g) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p g) ((ValueIdx.contrEquiv1 dot_S512x1024_S1024x1024_S512x1024_1_0_0_1_n_n 1024 rfl rfl).symm k) = ix2 p k := funext fun a => Fin.ext (by
    match a with
    | ⟨0, _⟩ => exact lhsN_0 _ _
    | ⟨1, _⟩ => exact (lhsN_1 _ _).trans hk)
  have er : dot_S512x1024_S1024x1024_S512x1024_1_0_0_1_n_n.rhsIdx (ix2 p g) ((ValueIdx.contrEquiv1 dot_S512x1024_S1024x1024_S512x1024_1_0_0_1_n_n 1024 rfl rfl).symm k) = ix2 k g := funext fun a => Fin.ext (by
    match a with
    | ⟨0, _⟩ => exact (rhsN_0 _ _).trans hk
    | ⟨1, _⟩ => exact rhsN_1 _ _)
  rw [el, er]

/-! ## The body's arithmetic at an entry of the tile -/

/-- The body's arithmetic read at entry `(0, r, g)` of the tile. -/
theorem tile_entry (x0 : Vec Ideal S1x512x1024 .f32) (x1 : Vec Ideal S1024x1024 .bf16) (x4 : Vec Ideal S1x1024x1024 .f32)
    (x2 : Vec Ideal S1024x1024 .bf16) (x3 : Vec Ideal S1024 .f32) (u : Fin 1) (r : Fin 512) (g : Fin 1024) :
    k1_pay1 x0 x1 x4 x2 x3 (ix3 u r g)
      = (∑ f : Fin 1024, (∑ e : Fin 1024, (∑ d : Fin 1024, x0 (ix3 (0 : Fin 1) r d) * x1 (ix2 e d)) * x4 (ix3 (0 : Fin 1) e f)) * x2 (ix2 g f))
        + x3 (ix1 g) + x0 (ix3 (0 : Fin 1) r g) := by
  unfold k1_pay1
  refine (shapeCast_ab_1ab_apply _ _ u r g).trans ?_
  rw [addf_apply, addf_apply, matmulT_apply, broadcastTo_1b_ab_apply, shapeCast_a_1a_apply, shapeCast_1ab_ab_apply]
  simp only [truncf_apply, shapeCast_self, matmulN_apply, matmulT_apply, shapeCast_1ab_ab_apply]

section Blocks

/-! ## The blocks the five input windows stage, read off the arrays the region is entered with -/

variable (V : (c : Dev nD) → (b : Ref sig .tc) → Buf (Elt Ideal) ((c : Thread nD τ).loc b))

/-- The windows' index maps, decided once over the 64 grid points: point `t` is batch row `t / 8`, row tile `t % 8`;
    the row tile of `x` and the output tile sit at block `(t / 8, t % 8, 0)`, the key-value matrix at block `(t / 8, 0, 0)`,
    the two weight matrices and the bias at block zero. -/
theorem block_indices : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 3) = t.val / 8 ∧ win1_4.index t (1 : Fin 3) = 0 ∧ win1_4.index t (2 : Fin 3) = 0
    ∧ win1_5.index t (0 : Fin 3) = t.val / 8 ∧ win1_5.index t (1 : Fin 3) = t.val % 8 ∧ win1_5.index t (2 : Fin 3) = 0 :=
  (by decide +kernel : ∀ t : Fin grid1.N, _)

/-- The row tile: entry `(0, r, d)` of window 0's block at point `t` is `x[t / 8, 512 (t % 8) + r, d]`. -/
theorem blk_x_apply (c : Dev nD) (t : Fin cfg1.N) (u : Fin 1) (r : Fin 512) (d : Fin 1024) (b : Fin 8) (s : Fin 4096)
    (hb : b.val = t.val / 8) (hs : s.val = 512 * (t.val % 8) + r.val) :
    (blk1 V c 0 t : Vec Ideal S1x512x1024 .f32) (ix3 u r d) = (V c main_arg0 : S8x4096x1024.Idx → EReal) (ix3 b s d) := by
  obtain ⟨e0, e1, e2, -⟩ := block_indices t
  unfold blk1
  rw [View.read_apply]
  show V c main_arg0 _ = V c main_arg0 _
  congr 1
  funext a
  apply Fin.ext
  match a with
  | ⟨0, _⟩ => show win1_0.index t 0 * 1 + 1 * u.val = b.val; have := u.isLt; omega
  | ⟨1, _⟩ => show win1_0.index t 1 * 512 + 1 * r.val = s.val; omega
  | ⟨2, _⟩ => show win1_0.index t 2 * 1024 + 1 * d.val = d.val; omega

/-- The query weights: window 1's block at every point is the whole matrix. -/
theorem blk_wq_apply (c : Dev nD) (t : Fin cfg1.N) (e d : Fin 1024) :
    (blk1 V c 1 t : Vec Ideal S1024x1024 .bf16) (ix2 e d) = (V c main_v0 : S1024x1024.Idx → EReal) (ix2 e d) := by
  obtain ⟨-, -, -, e0, e1, -⟩ := block_indices t
  unfold blk1
  rw [View.read_apply]
  show V c main_v0 _ = V c main_v0 _
  congr 1
  funext a
  apply Fin.ext
  match a with
  | ⟨0, _⟩ => show win1_1.index t 0 * 1024 + 1 * e.val = e.val; omega
  | ⟨1, _⟩ => show win1_1.index t 1 * 1024 + 1 * d.val = d.val; omega

/-- The projection weights: window 2's block at every point is the whole matrix. -/
theorem blk_wp_apply (c : Dev nD) (t : Fin cfg1.N) (g f : Fin 1024) :
    (blk1 V c 2 t : Vec Ideal S1024x1024 .bf16) (ix2 g f) = (V c main_v3 : S1024x1024.Idx → EReal) (ix2 g f) := by
  obtain ⟨-, -, -, -, -, e0, e1, -⟩ := block_indices t
  unfold blk1
  rw [View.read_apply]
  show V c main_v3 _ = V c main_v3 _
  congr 1
  funext a
  apply Fin.ext
  match a with
  | ⟨0, _⟩ => show win1_2.index t 0 * 1024 + 1 * g.val = g.val; omega
  | ⟨1, _⟩ => show win1_2.index t 1 * 1024 + 1 * f.val = f.val; omega

/-- The bias: window 3's block at every point is the whole row. -/
theorem blk_bias_apply (c : Dev nD) (t : Fin cfg1.N) (g : Fin 1024) :
    (blk1 V c 3 t : Vec Ideal S1024 .f32) (ix1 g) = (V c main_arg5 : S1024.Idx → EReal) (ix1 g) := by
  obtain ⟨-, -, -, -, -, -, -, e0, -⟩ := block_indices t
  unfold blk1
  rw [View.read_apply]
  show V c main_arg5 _ = V c main_arg5 _
  congr 1
  funext a
  apply Fin.ext
  match a with
  | ⟨0, _⟩ => show win1_3.index t 0 * 1024 + 1 * g.val = g.val; omega

/-- The key-value matrix: entry `(0, e, f)` of window 4's block at point `t` is `kv[t / 8, e, f]`. -/
theorem blk_kv_apply (c : Dev nD) (t : Fin cfg1.N) (u : Fin 1) (e f : Fin 1024) (b : Fin 8) (hb : b.val = t.val / 8) :
    (blk1 V c 4 t : Vec Ideal S1x1024x1024 .f32) (ix3 u e f) = (V c main_v4 : S8x1024x1024.Idx → EReal) (ix3 b e f) := by
  obtain ⟨-, -, -, -, -, -, -, -, e0, e1, e2, -⟩ := block_indices t
  unfold blk1
  rw [View.read_apply]
  show V c main_v4 _ = V c main_v4 _
  congr 1
  funext a
  apply Fin.ext
  match a with
  | ⟨0, _⟩ => show win1_4.index t 0 * 1 + 1 * u.val = b.val; have := u.isLt; omega
  | ⟨1, _⟩ => show win1_4.index t 1 * 1024 + 1 * e.val = e.val; omega
  | ⟨2, _⟩ => show win1_4.index t 2 * 1024 + 1 * f.val = f.val; omega

/-! ## What a point writes back, and the whole array -/

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- Point `t` writes back block `(t / 8, t % 8, 0)` of the one whole-array function. -/
theorem tile_written (c : Dev nD) (t : Fin cfg1.N) :
    (dat1 (F := Ideal) V c).flushed 5 t
      = ((cfg1.win 5).blk t).view.read (Elt Ideal)
          (Cert.Spec.outArr (V c main_arg0) (V c main_v0) (V c main_v3) (V c main_arg5) (V c main_v4)) := by
  show (cfg1.win 5).cut (grid1.coords t) ((dat1 V c).after 5 t) = _
  rw [after1_5]
  unfold outTile
  rw [View.canon_unit_zero zero3]
  simp only [View.ld_unit_zero (S := S1x512x1024) zero3, View.ld_unit_zero (S := S1024x1024) zero2,
    View.ld_unit_zero (S := S1024) zero1, View.ld_unit_zero (S := S1x1024x1024) zero3]
  funext j
  obtain ⟨u, r, g, rfl⟩ : ∃ (u : Fin 1) (r : Fin 512) (g : Fin 1024), j = ix3 u r g := ⟨j 0, j 1, j 2, eq_ix3 j⟩
  obtain ⟨-, -, -, -, -, -, -, -, -, -, -, e0, e1, e2⟩ := block_indices t
  have ht : t.val < 64 := by have h := t.isLt; have hN : cfg1.N = 64 := N_1; omega
  have hemb : ((cfg1.win 5).blk t).view.emb (ix3 u r g)
      = ix3 (⟨t.val / 8, by omega⟩ : Fin 8) (⟨512 * (t.val % 8) + r.val, by have := r.isLt; omega⟩ : Fin 4096) g := by
    funext a; apply Fin.ext
    match a with
    | ⟨0, _⟩ => show win1_5.index t 0 * 1 + 1 * u.val = t.val / 8; have := u.isLt; omega
    | ⟨1, _⟩ => show win1_5.index t 1 * 512 + 1 * r.val = 512 * (t.val % 8) + r.val; omega
    | ⟨2, _⟩ => show win1_5.index t 2 * 1024 + 1 * g.val = g.val; omega
  show k1_pay1 (blk1 V c 0 t) (blk1 V c 1 t) (blk1 V c 4 t) (blk1 V c 2 t) (blk1 V c 3 t) (ix3 u r g)
    = Cert.Spec.outArr (V c main_arg0) (V c main_v0) (V c main_v3) (V c main_arg5) (V c main_v4)
        (((cfg1.win 5).blk t).view.emb (ix3 u r g))
  rw [hemb]
  refine (tile_entry (blk1 V c 0 t) (blk1 V c 1 t) (blk1 V c 4 t) (blk1 V c 2 t) (blk1 V c 3 t) u r g).trans ?_
  show _ = Cert.Spec.outAt (V c main_arg0) (V c main_v0) (V c main_v3) (V c main_arg5) (V c main_v4)
    (⟨t.val / 8, by omega⟩ : Fin 8) (⟨512 * (t.val % 8) + r.val, by have := r.isLt; omega⟩ : Fin 4096) g
  unfold Cert.Spec.outAt Cert.Spec.lin
  refine congrArg₂ (· + ·) (congrArg₂ (· + ·) (Finset.sum_congr rfl fun f _ => congrArg₂ (· * ·)
      (Finset.sum_congr rfl fun e _ => congrArg₂ (· * ·)
        (Finset.sum_congr rfl fun d _ => congrArg₂ (· * ·) (blk_x_apply V c t 0 r d _ _ rfl rfl) (blk_wq_apply V c t e d))
        (blk_kv_apply V c t 0 e f _ rfl))
      (blk_wp_apply V c t g f)) (blk_bias_apply V c t g)) (blk_x_apply V c t 0 r g _ _ rfl rfl)

/-- An index of the result array lies in point `t`'s block iff each coordinate lies in the block's range on its axis. -/
theorem mem_tile (t : Fin cfg1.N) (i : S8x4096x1024.Idx) :
    i ∈ ((cfg1.win 5).blk t).view.set
      ↔ ∀ a : Fin 3, win1_5.index t a * S1x512x1024.size a ≤ (i a).val
          ∧ (i a).val < win1_5.index t a * S1x512x1024.size a + S1x512x1024.size a := by
  show i ∈ ((View.whole main_v5).slice (win1_5.rect t)).set ↔ _
  rw [View.set_slice_whole, Rect.mem_set_unit]
  exact Iff.rfl

/-- The 64 blocks tile the array: entry `(b, s, g)` lies in the block of point `8 b + s / 512`, which writes it back. -/
theorem tiles_cover (i : S8x4096x1024.Idx) :
    ∃ t : Fin cfg1.N, (cfg1.win 5).flush t = true ∧ i ∈ ((cfg1.win 5).blk t).view.set := by
  have h0 : (i 0).val < 8 := (i 0).isLt
  have h1 : (i 1).val < 4096 := (i 1).isLt
  have h2 : (i 2).val < 1024 := (i 2).isLt
  have hN : cfg1.N = 64 := N_1
  obtain ⟨t, ht⟩ : ∃ t : Fin cfg1.N, t.val = 8 * (i 0).val + (i 1).val / 512 := ⟨⟨_, by omega⟩, rfl⟩
  obtain ⟨-, -, -, -, -, -, -, -, -, -, -, e0, e1, e2⟩ := block_indices t
  refine ⟨t, flush1_5 t, ?_⟩
  rw [mem_tile]
  intro a
  match a with
  | ⟨0, _⟩ => show win1_5.index t 0 * 1 ≤ (i 0).val ∧ (i 0).val < win1_5.index t 0 * 1 + 1; omega
  | ⟨1, _⟩ => show win1_5.index t 1 * 512 ≤ (i 1).val ∧ (i 1).val < win1_5.index t 1 * 512 + 512; omega
  | ⟨2, _⟩ => show win1_5.index t 2 * 1024 ≤ (i 2).val ∧ (i 2).val < win1_5.index t 2 * 1024 + 1024; omega

end Blocks

/-- After the second pallas_call the result array holds, at exact arithmetic,
    `∑_f (∑_e q[b, s, e] · kv[b, e, f]) · wp[g, f] + bp[g] + x[b, s, g]` of the arrays the region is entered with. -/
theorem out_final (V : (c : Dev nD) → (b : Ref sig .tc) → Buf (Elt Ideal) ((c : Thread nD τ).loc b)) (c : Dev nD) :
    (dat1 (F := Ideal) V c).arrAt 5 cfg1.N
      = Cert.Spec.outArr (V c main_arg0) (V c main_v0) (V c main_v3) (V c main_arg5) (V c main_v4) :=
  (dat1 (F := Ideal) V c).arrAt_eq_of_cover 5
    (Cert.Spec.outArr (V c main_arg0) (V c main_v0) (V c main_v3) (V c main_arg5) (V c main_v4))
    (fun t _ => tile_written V c t) tiles_cover

end Cert.KernelIdeal.OutValue

end
-- ==== Proof.KI.Result.lean ====
import proofs.«118386_j88364657148296_1_alg».proof.Proof.KI.RunValue
import proofs.«118386_j88364657148296_1_alg».proof.Proof.KI.KvValue
import proofs.«118386_j88364657148296_1_alg».proof.Proof.KI.OutValue
import Idealize.ShloMosaic.Lib.StableHlo.Run
import Idealize.ShloMosaic.Lib.ValueIdx

/-!
# The idealized kernel program computes the specification

At exact arithmetic the four casts of the weights are the identity, so the accumulating kernel is entered with the key
and value weights themselves and leaves `kv = ∑ₛ kᵀ v` over all positions; the output kernel is entered with that array,
the query and projection weights and the bias, and leaves `(q · kv) · Wpᵀ + bias + x`: the specification's `result`.
-/

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The buffers the first kernel is entered with -/

theorem atAcc_x (c : Dev nD) : atAcc m c main_arg0 = m ((c.tc : Thread nD τ).loc main_arg0) :=
  Gen.V1_of m c main_arg0 (by decide)

/-- The cast key weights are the key weights. -/
theorem atAcc_wk (c : Dev nD) :
    (atAcc m c main_v1 : Cert.Spec.SW.Idx → EReal) = (m ((c.tc : Thread nD τ).loc main_arg2) : Cert.Spec.SW.Idx → EReal) := by
  have e : (Gen.V1 m c main_v1 : S1024x1024.Idx → EReal)
      = truncf (F := Ideal) .bf16 (m ((c.tc : Thread nD τ).loc main_arg2) : FVec Ideal S1024x1024 .f32) bitsLt_bf16_f32 := by
    dsimp only [Gen.V1, Gen.hostOps0]; after_results
  exact e.trans (funext fun i => truncf_apply _ _ i)

/-- The cast value weights are the value weights. -/
theorem atAcc_wv (c : Dev nD) :
    (atAcc m c main_v2 : Cert.Spec.SW.Idx → EReal) = (m ((c.tc : Thread nD τ).loc main_arg3) : Cert.Spec.SW.Idx → EReal) := by
  have e : (Gen.V1 m c main_v2 : S1024x1024.Idx → EReal)
      = truncf (F := Ideal) .bf16 (m ((c.tc : Thread nD τ).loc main_arg3) : FVec Ideal S1024x1024 .f32) bitsLt_bf16_f32 := by
    dsimp only [Gen.V1, Gen.hostOps0]; after_results
  exact e.trans (funext fun i => truncf_apply _ _ i)

/-! ## The buffers the second kernel is entered with -/

theorem atOut_x (c : Dev nD) : atOut m c main_arg0 = m ((c.tc : Thread nD τ).loc main_arg0) :=
  (Gen.V2_of m (outsKv m) c main_arg0 (by decide)).trans (Gen.V1_of m c main_arg0 (by decide))

theorem atOut_bias (c : Dev nD) : atOut m c main_arg5 = m ((c.tc : Thread nD τ).loc main_arg5) :=
  (Gen.V2_of m (outsKv m) c main_arg5 (by decide)).trans (Gen.V1_of m c main_arg5 (by decide))

/-- The cast query weights are the query weights. -/
theorem atOut_wq (c : Dev nD) :
    (atOut m c main_v0 : Cert.Spec.SW.Idx → EReal) = (m ((c.tc : Thread nD τ).loc main_arg1) : Cert.Spec.SW.Idx → EReal) := by
  have e : (Gen.V1 m c main_v0 : S1024x1024.Idx → EReal)
      = truncf (F := Ideal) .bf16 (m ((c.tc : Thread nD τ).loc main_arg1) : FVec Ideal S1024x1024 .f32) bitsLt_bf16_f32 := by
    dsimp only [Gen.V1, Gen.hostOps0]; after_results
  exact (Gen.V2_of m (outsKv m) c main_v0 (by decide)).trans (e.trans (funext fun i => truncf_apply _ _ i))

/-- The cast projection weights are the projection weights. -/
theorem atOut_wp (c : Dev nD) :
    (atOut m c main_v3 : Cert.Spec.SW.Idx → EReal) = (m ((c.tc : Thread nD τ).loc main_arg4) : Cert.Spec.SW.Idx → EReal) := by
  have e : (Gen.V1 m c main_v3 : S1024x1024.Idx → EReal)
      = truncf (F := Ideal) .bf16 (m ((c.tc : Thread nD τ).loc main_arg4) : FVec Ideal S1024x1024 .f32) bitsLt_bf16_f32 := by
    dsimp only [Gen.V1, Gen.hostOps0]; after_results
  exact (Gen.V2_of m (outsKv m) c main_v3 (by decide)).trans (e.trans (funext fun i => truncf_apply _ _ i))

/-- The key-value array it is entered with is what the first kernel left. -/
theorem atOut_kv (c : Dev nD) : atOut m c main_v4 = kvOut m c := by
  show Function.update (Gen.V1 m c) main_v4 (outsKv m 2 main_v4 c) (Proc.devRef .tc main_v4) = _
  rw [Function.update_self, outsKv_kv]

/-! ## The result -/

/-- What the first kernel leaves is the specification's key-value array of the arguments. -/
theorem kvOut_spec (c : Dev nD) :
    (kvOut m c : Cert.Spec.SKV.Idx → EReal) = Cert.Spec.kvArr (m ((c.tc : Thread nD τ).loc main_arg0))
      (m ((c.tc : Thread nD τ).loc main_arg2)) (m ((c.tc : Thread nD τ).loc main_arg3)) := by
  unfold kvOut
  rw [Cert.KernelIdeal.KvValue.kv_final (atAcc m) c, atAcc_x, atAcc_wk, atAcc_wv]

/-- What the second kernel leaves is the specification's result of the six arguments. -/
theorem resOut_spec (c : Dev nD) :
    (resOut m c : Cert.Spec.SX.Idx → EReal) = Cert.Spec.result (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  unfold resOut Cert.Spec.result
  rw [Cert.KernelIdeal.OutValue.out_final (atOut m) c, atOut_x, atOut_wq, atOut_wp, atOut_bias, atOut_kv, kvOut_spec]

end Cert.KernelIdeal.Hand

end
-- ==== Proof.RefSpec.lean ====
import proofs.«118386_j88364657148296_1_alg».proof.Proof.Gen.ReferenceIdeal.Run
import proofs.«118386_j88364657148296_1_alg».proof.Proof.Gen.ReferenceIdeal.Read
import proofs.«118386_j88364657148296_1_alg».proof.Proof.Spec
import Idealize.ShloMosaic.Lib.ValueIdx
import Idealize.ShloMosaic.PureOps.Ideal.Laws

noncomputable section

namespace Cert.RefSpec

open Idealize.ShloMosaic Idealize.ShloMosaic.TcCoe Idealize.SL.Sem Idealize.ShloMosaic.ValueIdx
open Cert.ReferenceIdeal

/-! ## The reference's stages at coordinates

Each stage of the reference, read at an index given by its coordinates, is the corresponding piece of the specification:
the three projections are the linear layer, their batched product over the sequence axis is the key-value matrix, and so on
down to the last sum. Nothing but the identification of indices joins the two sides: the sums are grouped the same way. -/

section Stages

open Cert.Spec Cert.ReferenceIdeal.Read

variable (x : SX.Idx → EReal) (wq wk wv wp : SW.Idx → EReal) (bp : SB.Idx → EReal)

/-- The query projection at `(b, s, e)` is row `(b, s)` of `x` against row `e` of the query weights. -/
theorem q_at (b : Fin 8) (s : Fin 4096) (e : Fin 1024) :
    val_main_v0 (F := Ideal) x wq (ix3 b s e) = lin x wq b s e := by
  rw [val_main_v0_apply]
  unfold lin
  refine Finset.sum_congr rfl fun d _ => ?_
  have hl : lidx_main_v0 (ix3 b s e) d = ix3 b s d :=
    funext fun a => Fin.ext (by match a with | ⟨0, _⟩ => rfl | ⟨1, _⟩ => rfl | ⟨2, _⟩ => rfl)
  have hr : ridx_main_v0 (ix3 b s e) d = ix2 e d :=
    funext fun a => Fin.ext (by match a with | ⟨0, _⟩ => rfl | ⟨1, _⟩ => rfl)
  rw [hl, hr]

/-- The key projection at `(b, s, e)` is the linear layer with the key weights. -/
theorem k_at (b : Fin 8) (s : Fin 4096) (e : Fin 1024) :
    val_main_v1 (F := Ideal) x wk (ix3 b s e) = lin x wk b s e := by
  rw [val_main_v1_apply]
  unfold lin
  refine Finset.sum_congr rfl fun d _ => ?_
  have hl : lidx_main_v1 (ix3 b s e) d = ix3 b s d :=
    funext fun a => Fin.ext (by match a with | ⟨0, _⟩ => rfl | ⟨1, _⟩ => rfl | ⟨2, _⟩ => rfl)
  have hr : ridx_main_v1 (ix3 b s e) d = ix2 e d :=
    funext fun a => Fin.ext (by match a with | ⟨0, _⟩ => rfl | ⟨1, _⟩ => rfl)
  rw [hl, hr]

/-- The value projection at `(b, s, f)` is the linear layer with the value weights. -/
theorem v_at (b : Fin 8) (s : Fin 4096) (f : Fin 1024) :
    val_main_v2 (F := Ideal) x wv (ix3 b s f) = lin x wv b s f := by
  rw [val_main_v2_apply]
  unfold lin
  refine Finset.sum_congr rfl fun d _ => ?_
  have hl : lidx_main_v2 (ix3 b s f) d = ix3 b s d :=
    funext fun a => Fin.ext (by match a with | ⟨0, _⟩ => rfl | ⟨1, _⟩ => rfl | ⟨2, _⟩ => rfl)
  have hr : ridx_main_v2 (ix3 b s f) d = ix2 f d :=
    funext fun a => Fin.ext (by match a with | ⟨0, _⟩ => rfl | ⟨1, _⟩ => rfl)
  rw [hl, hr]

/-- The batched product of keys and values over the sequence axis at `(b, e, f)` is the key-value entry. -/
theorem kv_at (b : Fin 8) (e f : Fin 1024) :
    val_main_v3 (F := Ideal) x wk wv (ix3 b e f) = kvAt x wk wv b e f := by
  rw [val_main_v3_apply]
  unfold kvAt
  refine Finset.sum_congr rfl fun s _ => ?_
  have hl : lidx_main_v3 (ix3 b e f) s = ix3 b s e :=
    funext fun a => Fin.ext (by match a with | ⟨0, _⟩ => rfl | ⟨1, _⟩ => rfl | ⟨2, _⟩ => rfl)
  have hr : ridx_main_v3 (ix3 b e f) s = ix3 b s f :=
    funext fun a => Fin.ext (by match a with | ⟨0, _⟩ => rfl | ⟨1, _⟩ => rfl | ⟨2, _⟩ => rfl)
  rw [hl, hr, k_at, v_at]

/-- The queries against the key-value matrix at `(b, s, f)`: `∑_e q[b, s, e] · kv[b, e, f]`. -/
theorem z_at (b : Fin 8) (s : Fin 4096) (f : Fin 1024) :
    val_main_v4 (F := Ideal) x wq wk wv (ix3 b s f)
      = ∑ e : Fin 1024, lin x wq b s e * kvArr x wk wv (ix3 b e f) := by
  rw [val_main_v4_apply]
  refine Finset.sum_congr rfl fun e _ => ?_
  have hl : lidx_main_v4 (ix3 b s f) e = ix3 b s e :=
    funext fun a => Fin.ext (by match a with | ⟨0, _⟩ => rfl | ⟨1, _⟩ => rfl | ⟨2, _⟩ => rfl)
  have hr : ridx_main_v4 (ix3 b s f) e = ix3 b e f :=
    funext fun a => Fin.ext (by match a with | ⟨0, _⟩ => rfl | ⟨1, _⟩ => rfl | ⟨2, _⟩ => rfl)
  rw [hl, hr, q_at, kv_at]
  rfl

/-- The output projection at `(b, s, g)`: `∑_f z[b, s, f] · wp[g, f]`. -/
theorem proj_at (b : Fin 8) (s : Fin 4096) (g : Fin 1024) :
    val_main_v5 (F := Ideal) x wq wk wv wp (ix3 b s g)
      = ∑ f : Fin 1024, (∑ e : Fin 1024, lin x wq b s e * kvArr x wk wv (ix3 b e f)) * wp (ix2 g f) := by
  rw [val_main_v5_apply]
  refine Finset.sum_congr rfl fun f _ => ?_
  have hl : lidx_main_v5 (ix3 b s g) f = ix3 b s f :=
    funext fun a => Fin.ext (by match a with | ⟨0, _⟩ => rfl | ⟨1, _⟩ => rfl | ⟨2, _⟩ => rfl)
  have hr : ridx_main_v5 (ix3 b s g) f = ix2 g f :=
    funext fun a => Fin.ext (by match a with | ⟨0, _⟩ => rfl | ⟨1, _⟩ => rfl)
  rw [hl, hr, z_at]

/-- The bias spread over batch and sequence reads, at `(b, s, g)`, its entry `g`. -/
theorem bias_at (b : Fin 8) (s : Fin 4096) (g : Fin 1024) :
    val_main_v7 (F := Ideal) bp (ix3 b s g) = bp (ix1 g) := by
  rw [val_main_v7_apply, val_main_v6_apply]
  exact congrArg bp (funext fun a => Fin.ext (by match a with | ⟨0, _⟩ => rfl))

/-- The reference's last stage is the specification's result, index by index. -/
theorem val_eq_result :
    val_main_v9 (F := Ideal) x wq wk wv wp bp = result x wq wk wv wp bp := by
  funext i
  obtain ⟨b, s, g, rfl⟩ : ∃ (b : Fin 8) (s : Fin 4096) (g : Fin 1024), i = ix3 b s g :=
    ⟨i 0, i 1, i 2, eq_ix3 i⟩
  rw [val_main_v9_apply, val_main_v8_apply, Ideal.addf_def, Ideal.addf_def, proj_at, bias_at]
  rfl

end Stages

/-- The reference program, at exact arithmetic, ends with its result array at the specification's function of its six
    argument arrays, and the arguments unchanged. -/
theorem run_spec (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v9)
        = Cert.Spec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (Cert.ReferenceIdeal.defs (F := Ideal)) _ _).mono
    (fun _ h c => ⟨(h c).1.trans ((Read.val_main_v9_eq _ _ _ _ _ _).trans (val_eq_result _ _ _ _ _ _)), (h c).2⟩)
    (Cert.ReferenceIdeal.Value.run (F := Ideal) m ρ)

end Cert.RefSpec

end
-- ==== Proof.lean ====
/-
  Linear attention without a softmax, as two pallas_calls, against its plain reference — equivalence over the reals.

  The kernel program casts the four weight matrices, then runs an accumulating kernel that builds, per batch row, the
  matrix `kv = ∑ₛ kᵀ v` tile by tile (512 positions at a time, in a scratch accumulator zeroed at the first tile and
  copied out at the last), then an output kernel that forms `(q · kv) · Wpᵀ + bias + x` tile by tile. The reference
  computes the same with whole-array contractions. At exact arithmetic the casts are the identity and a sum taken in
  eight tiles of 512 is the sum over all 4096 positions, so both programs end at one function of the six arguments
  (`Cert.Spec.result`).

  The frames of the two kernel programs come from one segment record per pallas_call handed to the generated conditional
  frame; the accumulating kernel's record carries its scratch in the region's invariant. The reference's frame is its
  generated run with the result dropped. The ideal pass rewrote nothing, so `preserves` asks nothing.
-/
import proofs.«118386_j88364657148296_1_alg».proof.Defs
import proofs.«118386_j88364657148296_1_alg».proof.Proof.Gen.Kernel
import proofs.«118386_j88364657148296_1_alg».proof.Proof.Gen.Kernel.Skeleton
import proofs.«118386_j88364657148296_1_alg».proof.Proof.Gen.Kernel.Launch
import proofs.«118386_j88364657148296_1_alg».proof.Proof.Gen.Kernel.Regions
import proofs.«118386_j88364657148296_1_alg».proof.Proof.Gen.Kernel.Points
import proofs.«118386_j88364657148296_1_alg».proof.Proof.Gen.KernelIdeal
import proofs.«118386_j88364657148296_1_alg».proof.Proof.Gen.KernelIdeal.Skeleton
import proofs.«118386_j88364657148296_1_alg».proof.Proof.Gen.KernelIdeal.Launch
import proofs.«118386_j88364657148296_1_alg».proof.Proof.Gen.KernelIdeal.Regions
import proofs.«118386_j88364657148296_1_alg».proof.Proof.Gen.KernelIdeal.Points
import proofs.«118386_j88364657148296_1_alg».proof.Proof.Gen.ReferenceIdeal
import proofs.«118386_j88364657148296_1_alg».proof.Proof.Gen.Pre_finite_inputs
import proofs.«118386_j88364657148296_1_alg».proof.Proof.K.Launch
import proofs.«118386_j88364657148296_1_alg».proof.Proof.KI.Launch
import proofs.«118386_j88364657148296_1_alg».proof.Proof.KI.Result
import proofs.«118386_j88364657148296_1_alg».proof.Proof.RefSpec
import Idealize.ShloMosaic.Adequacy
import Idealize.ShloMosaic.Init

noncomputable section

namespace Cert.Proof

open Idealize.ShloMosaic Idealize.ShloMosaic.TcCoe Idealize.SL.Sem

/-- The kernel program as printed runs to the end and leaves its arguments alone. -/
theorem frame_kernel : Cert.frame_Kernel :=
  fun m ρ _ => Cert.Kernel.Hand.frame (F := Bits) m ρ

/-- So does its reading at exact arithmetic. -/
theorem frame_kernelIdeal : Cert.frame_KernelIdeal :=
  fun m ρ _ => Cert.KernelIdeal.Hand.frame (F := Ideal) m ρ

/-- The reference's frame is its run with the result dropped. -/
theorem frame_reference : Cert.frame_ReferenceIdeal :=
  fun m ρ _ => (θ_run Cert.ReferenceIdeal.defs _ _).mono (fun _ h c => (h c).2) (Cert.RefSpec.run_spec m ρ)

/-- The ideal pass rewrote no operation. -/
theorem preserves : Cert.preserves_Kernel_KernelIdeal := trivial

/-- From memories agreeing on the six arguments both idealized programs end with their result arrays at the
    specification's function of those arguments. -/
theorem algebraic : Cert.algebraic_KernelIdeal_ReferenceIdeal := by
  intro m ρ m' ρ' _ hagree
  refine ⟨fun c => Cert.KernelIdeal.Hand.resOut m c, Cert.KernelIdeal.Hand.run_value (F := Ideal) m ρ, ?_⟩
  refine (θ_run Cert.ReferenceIdeal.defs _ _).mono (fun _ h c => ⟨(h c).1.trans ?_, (h c).2⟩) (Cert.RefSpec.run_spec m' ρ')
  rw [(hagree c).1, (hagree c).2.1, (hagree c).2.2.1, (hagree c).2.2.2.1, (hagree c).2.2.2.2.1, (hagree c).2.2.2.2.2]
  exact (Cert.KernelIdeal.Hand.resOut_spec m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
